-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S128x32 : Shape := ⟨2, ![128, 32]⟩
abbrev S32x1x1 : Shape := ⟨3, ![32, 1, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32x1x1 : S_.BroadcastsInDim S32x1x1 (![] : Fin 0 → Fin S32x1x1.rank)
  reducesTo_S32x1x1_S_d0_1_2 : S32x1x1.ReducesTo [0, 1, 2] S_

variable [Facts]

def fn {F : FTy → Type} [FloatOps F] (main_arg0 : FVec F S50000x128 .f32) (main_arg1 : IVec S50000 32) (main_arg2 : FVec F S128x32 .f32) (main_arg3 : FVec F S32x1x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32x1x1 .f32 := Host.absf main_arg3
  let main_cst_2 : FVec F S_ .f32 := constant S_ .f32 0x7F800000#32
  let main_v10 : FVec F S32x1x1 .f32 := broadcastInDim S32x1x1 ![] bcast_S_S32x1x1 main_cst_2
  let main_v11 : IVec S32x1x1 1 := cmpf .olt main_v9 main_v10
  let main_c_3 : IVec S_ 1 := constantI S_ 1 1#1
  let main_v12 : IVec S_ 1 := (fun x v => Host.reduce IntOp.andi x v reducesTo_S32x1x1_S_d0_1_2 h_S_) main_v11 main_c_3
  let main_v13 : IVec S_ 1 := andi main_v8 main_v12
  main_v13
-- ==== Kernel.lean ====
abbrev S50000x128 : Shape := ⟨2, ![50000, 128]⟩
abbrev S50000 : Shape := ⟨1, ![50000]⟩
abbrev S128x32 : Shape := ⟨2, ![128, 32]⟩
abbrev S32x1x1 : Shape := ⟨3, ![32, 1, 1]⟩
abbrev S32x32x1 : Shape := ⟨3, ![32, 32, 1]⟩
abbrev S1024x1 : Shape := ⟨2, ![1024, 1]⟩
abbrev S_ : Shape := ⟨0, ![]⟩
abbrev S10x5000x1 : Shape := ⟨3, ![10, 5000, 1]⟩
abbrev S128x1024 : Shape := ⟨2, ![128, 1024]⟩
abbrev S128x32x32 : Shape := ⟨3, ![128, 32, 32]⟩
abbrev S5000x128 : Shape := ⟨2, ![5000, 128]⟩
abbrev S1x5000x1 : Shape := ⟨3, ![1, 5000, 1]⟩
abbrev S1024x128 : Shape := ⟨2, ![1024, 128]⟩
abbrev S8x128 : Shape := ⟨2, ![8, 128]⟩
abbrev S32x5000 : Shape := ⟨2, ![32, 5000]⟩
abbrev S1x32x5000 : Shape := ⟨3, ![1, 32, 5000]⟩
abbrev S32x32x5000 : Shape := ⟨3, ![32, 32, 5000]⟩
abbrev S1024x5000 : Shape := ⟨2, ![1024, 5000]⟩
abbrev S5000x1 : Shape := ⟨2, ![5000, 1]⟩
abbrev S1x128 : Shape := ⟨2, ![1, 128]⟩
abbrev S128 : Shape := ⟨1, ![128]⟩
abbrev S128x1 : Shape := ⟨2, ![128, 1]⟩

abbrev nBuf : Space → Nat
  | .hbm => 12
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S128x32, .f32⟩
  | .hbm, ⟨3, _⟩ => ⟨S32x1x1, .f32⟩
  | .hbm, ⟨4, _⟩ => ⟨S32x32x1, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S10x5000x1, .i32⟩
  | .hbm, ⟨10, _⟩ => ⟨S128x1024, .f32⟩
  | .hbm, ⟨11, _⟩ => ⟨S128x32x32, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S1x5000x1, .i32⟩
  | .local _ .vmem, ⟨4, _⟩ => ⟨S1x5000x1, .i32⟩
  | .local _ .vmem, ⟨5, _⟩ => ⟨S1024x1, .f32⟩
  | .local _ .vmem, ⟨6, _⟩ => ⟨S128x1024, .f32⟩
  | .local _ .vmem, ⟨7, _⟩ => ⟨S1024x128, .f32⟩
  | .local _ .vmem, ⟨8, _⟩ => ⟨S8x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S32x1x1_S32x32x1_0_1_2 : S32x1x1.BroadcastsInDim S32x32x1 (![0, 1, 2] : Fin 3 → Fin S32x32x1.rank)
  shapeCasts_S32x32x1_S1024x1 : S32x32x1.ShapeCasts S1024x1
  bcast_S_S1024x1 : S_.BroadcastsInDim S1024x1 (![] : Fin 0 → Fin S1024x1.rank)
  shapeCasts_S50000_S10x5000x1 : S50000.ShapeCasts S10x5000x1
  shapeCasts_S128x1024_S128x32x32 : S128x1024.ShapeCasts S128x32x32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  shapeCasts_S32x5000_S1x32x5000 : S32x5000.ShapeCasts S1x32x5000
  shapeCasts_S1x32x5000_S1x32x5000 : S1x32x5000.ShapeCasts S1x32x5000
  broadcasts_S1x32x5000_S32x32x5000 : S1x32x5000.Broadcasts S32x32x5000
  shapeCasts_S32x32x5000_S1024x5000 : S32x32x5000.ShapeCasts S1024x5000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x5000 : S1024x1.Broadcasts S1024x5000
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  iota_S5000x128_d1_w32 : S5000x128.Iotas .tc 32 [1]
  broadcasts_S5000x1_S5000x128 : S5000x1.Broadcasts S5000x128
  natLt_1_32 : 1 < 32
  inb_S8x128_S1x128_0_0 : ∀ a, (![0, 0] : Fin 2 → Nat) a + S1x128.size a ≤ S8x128.size a
  h_S1x128 : 0 < S1x128.numel
  reduces_S5000x128_S128 : S5000x128.Reduces [0] S128
  shapeCasts_S128_S1x128 : S128.ShapeCasts S1x128
  shapeCasts_S1x128_S1x128 : S1x128.ShapeCasts S1x128
  transposes_S1024x128_p1_0_S128x1024 : S1024x128.Transposes [1, 0] S128x1024
  transposes_S1x128_p1_0_S128x1 : S1x128.Transposes [1, 0] S128x1
  broadcasts_S128x1_S128x1024 : S128x1.Broadcasts S128x1024
  inb_S128x1024_S128x1024_0_0 : ∀ a, (![0, 0] : Fin 2 → Nat) a + S128x1024.size a ≤ S128x1024.size a
  h_S128x1024 : 0 < S128x1024.numel
  dot_S128x32_S5000x128_S32x5000_0_1_1_0_n_n_wf : DotDims.WF S128x32 S5000x128 S32x5000 [0] [1] [1] [0] [] []
  dot_S1024x5000_S5000x128_S1024x128_1_0_0_1_n_n_wf : DotDims.WF S1024x5000 S5000x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x1.size a ≤ S10x5000x1.size a
  hwx0_2 : ∀ i : grid0.Coords, EltTy.bits .i32 = 32 ∨ (Rect.block (s := S10x5000x1) S1x5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)

variable [Facts₀]

def dot_S128x32_S5000x128_S32x5000_0_1_1_0_n_n : DotDims S128x32 S5000x128 S32x5000 where
  lhsContracting := [0]
  rhsContracting := [1]
  lhsNonContracting := [1]
  rhsNonContracting := [0]
  lhsBatch := []
  rhsBatch := []
  wf := dot_S128x32_S5000x128_S32x5000_0_1_1_0_n_n_wf
def dot_S1024x5000_S5000x128_S1024x128_1_0_0_1_n_n : DotDims S1024x5000 S5000x128 S1024x128 where
  lhsContracting := [1]
  rhsContracting := [0]
  lhsNonContracting := [0]
  rhsNonContracting := [1]
  lhsBatch := []
  rhsBatch := []
  wf := dot_S1024x5000_S5000x128_S1024x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S128x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S50000 : Shape := ⟨1, ![50000]⟩
abbrev S128x32 : Shape := ⟨2, ![128, 32]⟩
abbrev S32x1x1 : Shape := ⟨3, ![32, 1, 1]⟩
abbrev S50000x32 : Shape := ⟨2, ![50000, 32]⟩
abbrev S1x50000x32 : Shape := ⟨3, ![1, 50000, 32]⟩
abbrev S32x50000x32 : Shape := ⟨3, ![32, 50000, 32]⟩
abbrev S_ : Shape := ⟨0, ![]⟩
abbrev S50000x32x32 : Shape := ⟨3, ![50000, 32, 32]⟩
abbrev S128x32x32 : Shape := ⟨3, ![128, 32, 32]⟩
abbrev S50000x1 : Shape := ⟨2, ![50000, 1]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S128x32, .f32⟩
  | .hbm, ⟨3, _⟩ => ⟨S32x1x1, .f32⟩
  | .hbm, ⟨4, _⟩ => ⟨S50000x32, .f32⟩
  | .hbm, ⟨5, _⟩ => ⟨S1x50000x32, .f32⟩
  | .hbm, ⟨6, _⟩ => ⟨S32x50000x32, .f32⟩
  | .hbm, ⟨7, _⟩ => ⟨S32x50000x32, .f32⟩
  | .hbm, ⟨8, _⟩ => ⟨S32x50000x32, .f32⟩
  | .hbm, ⟨9, _⟩ => ⟨S_, .f32⟩
  | .hbm, ⟨10, _⟩ => ⟨S32x50000x32, .f32⟩
  | .hbm, ⟨11, _⟩ => ⟨S32x50000x32, .f32⟩
  | .hbm, ⟨12, _⟩ => ⟨S32x50000x32, .f32⟩
  | .hbm, ⟨13, _⟩ => ⟨S32x50000x32, .f32⟩
  | .hbm, ⟨14, _⟩ => ⟨S_, .f32⟩
  | .hbm, ⟨15, _⟩ => ⟨S32x50000x32, .f32⟩
  | .hbm, ⟨16, _⟩ => ⟨S32x50000x32, .f32⟩
  | .hbm, ⟨17, _⟩ => ⟨S_, .f32⟩
  | .hbm, ⟨18, _⟩ => ⟨S32x50000x32, .f32⟩
  | .hbm, ⟨19, _⟩ => ⟨S32x50000x32, .f32⟩
  | .hbm, ⟨20, _⟩ => ⟨S50000x32x32, .f32⟩
  | .hbm, ⟨21, _⟩ => ⟨S_, .f32⟩
  | .hbm, ⟨22, _⟩ => ⟨S128x32x32, .f32⟩
  | .hbm, ⟨23, _⟩ => ⟨S50000x1, .i32⟩
  | .hbm, ⟨24, _⟩ => ⟨S128x32x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S50000x32_S1x50000x32_1_2 : S50000x32.BroadcastsInDim S1x50000x32 (![1, 2] : Fin 2 → Fin S1x50000x32.rank)
  bcast_S32x1x1_S32x50000x32_0_1_2 : S32x1x1.BroadcastsInDim S32x50000x32 (![0, 1, 2] : Fin 3 → Fin S32x50000x32.rank)
  bcast_S1x50000x32_S32x50000x32_0_1_2 : S1x50000x32.BroadcastsInDim S32x50000x32 (![0, 1, 2] : Fin 3 → Fin S32x50000x32.rank)
  bcast_S_S32x50000x32 : S_.BroadcastsInDim S32x50000x32 (![] : Fin 0 → Fin S32x50000x32.rank)
  transposes_S32x50000x32_S50000x32x32_1_0_2 : S32x50000x32.Transposes [1, 0, 2] S50000x32x32
  bcast_S_S128x32x32 : S_.BroadcastsInDim S128x32x32 (![] : Fin 0 → Fin S128x32x32.rank)
  bcast_S50000_S50000x1_0 : S50000.BroadcastsInDim S50000x1 (![0] : Fin 1 → Fin S50000x1.rank)
  dot_S50000x128_S128x32_S50000x32_1_0_0_1_n_n_wf : DotDims.WF S50000x128 S128x32 S50000x32 [1] [0] [0] [1] [] []
  scatter_S128x32x32_S50000x1_S50000x32x32_12_0_0_1_wf : ScatterDims.WF S128x32x32 S50000x1 S50000x32x32 [1, 2] [0] [0] 1

variable [Facts₀]

def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def scatter_S128x32x32_S50000x1_S50000x32x32_12_0_0_1 : ScatterDims S128x32x32 S50000x1 S50000x32x32 where
  updateWindowDims := [1, 2]
  insertedWindowDims := [0]
  scatterDimsToOperandDims := [0]
  indexVectorDim := 1
  wf := scatter_S128x32x32_S50000x1_S50000x32x32_12_0_0_1_wf

class Facts : Prop extends Facts₀ where

variable [Facts]
-- ==== Proof.EctSpec.lean ====
/-
  The Euler-characteristic-transform layer as ONE function of its four arguments, index by index, on the extended reals,
  in the two arrangements the two programs compute it.

  Node `e` has features `x[e, ·]`, direction `t` is the column `v[·, t]`, and the height of node `e` along direction `t`
  is the inner product `proj x v e t = ∑ₖ x[e,k] · v[k,t]`. For a threshold `lin[s]` the node contributes the smoothed
  step `bump = 1 / (1 + exp (−(200 · (lin[s] − proj))))`, and the transform of graph `b` sums the contributions of the
  nodes whose segment word names `b`:

      ect x batch v lin (b, s, t) = ∑ { e | batch[e] = b } bump x v lin e s t.

  The second arrangement writes the step through the hyperbolic tangent, `σ(2u) = ½·tanh u + ½` with
  `u = 100·lin[s] − 100·⟨v_t, x_e⟩`, weights each node by the indicator `hit` of its segment, sums tangents and
  indicators separately over the ten blocks of five thousand nodes, and halves the total:

      ectK x batch v lin (b, s, t) = ½ · ( ∑ⱼ ∑ₚ tanh (zk (node j p) s t) · hit (node j p) b  +  ∑ⱼ ∑ₚ hit (node j p) b ).

  That the two are one function when every float argument is finite is EctAlgebra's theorem.
-/
import Idealize.ShloMosaic.PureOps.Ideal
import Idealize.ShloMosaic.PureOps.Ideal.Laws
import Idealize.ShloMosaic.Lib.ValueIdx

noncomputable section

open scoped BigOperators

namespace Cert.Ect

open Idealize.ShloMosaic Idealize.ShloMosaic.ValueIdx

/-- Node features, segment words, directions, thresholds, and the transform: the literal shapes. -/
abbrev SX : Shape := ⟨2, ![50000, 128]⟩
abbrev SB : Shape := ⟨1, ![50000]⟩
abbrev SV : Shape := ⟨2, ![128, 32]⟩
abbrev SL : Shape := ⟨3, ![32, 1, 1]⟩
abbrev SO : Shape := ⟨3, ![128, 32, 32]⟩

/-- The float literals of the two programs, as the extended reals their words denote. -/
def c200 : EReal := Ideal.ofBits .f32 0x43480000#32
def c100 : EReal := Ideal.ofBits .f32 0x42C80000#32
def cOne : EReal := Ideal.ofBits .f32 0x3F800000#32
def cHalf : EReal := Ideal.ofBits .f32 0x3F000000#32

/-- The height of node `e` along direction `t`: features times the direction's column. -/
def proj (x : SX.Idx → EReal) (v : SV.Idx → EReal) (e : Fin 50000) (t : Fin 32) : EReal :=
  ∑ k : Fin 128, x (ix2 e k) * v (ix2 k t)

/-- The smoothed step of node `e` at threshold `s` along direction `t`, as a quotient over an exponential. -/
def bump (x : SX.Idx → EReal) (v : SV.Idx → EReal) (lin : SL.Idx → EReal) (e : Fin 50000) (s t : Fin 32) : EReal :=
  Ideal.div cOne (cOne + Ideal.exp (-(c200 * (lin (ix3 s 0 0) - proj x v e t))))

/-- The transform: for graph `b`, the steps of the nodes whose segment word, read signed, is `b`. -/
def ect (x : SX.Idx → EReal) (batch : SB.Idx → BitVec 32) (v : SV.Idx → EReal) (lin : SL.Idx → EReal) : SO.Idx → EReal :=
  fun i => ∑ e ∈ Finset.univ.filter (fun e : Fin 50000 => (batch (ix1 e)).toInt = ((i 0).val : ℤ)), bump x v lin e (i 1) (i 2)

/-- Node `p` of block `j`: the blocks are consecutive runs of five thousand nodes. -/
def node (j : Fin 10) (p : Fin 5000) : Fin 50000 := ⟨5000 * j.val + p.val, by have := j.isLt; have := p.isLt; omega⟩

/-- Row `32·s + t` of the flattened (threshold, direction) axis. -/
def row (s t : Fin 32) : Fin 1024 := ⟨32 * s.val + t.val, by have := s.isLt; have := t.isLt; omega⟩

/-- Whether a segment word, read signed, names graph `b`: one or zero. -/
def hitw (w : BitVec 32) (b : Fin 128) : EReal := if w.toInt = (b.val : ℤ) then 1 else 0

/-- The indicator of node `e` lying in graph `b`. -/
def hit (batch : SB.Idx → BitVec 32) (e : Fin 50000) (b : Fin 128) : EReal := hitw (batch (ix1 e)) b

/-- The tangent arrangement's argument: a hundred thresholds minus a hundred heights, the height with its factors the other way round. -/
def zk (x : SX.Idx → EReal) (v : SV.Idx → EReal) (lin : SL.Idx → EReal) (e : Fin 50000) (s t : Fin 32) : EReal :=
  c100 * lin (ix3 s 0 0) - c100 * ∑ k : Fin 128, v (ix2 k t) * x (ix2 e k)

/-- The tangents of graph `b`'s nodes, block by block. -/
def accK (x : SX.Idx → EReal) (batch : SB.Idx → BitVec 32) (v : SV.Idx → EReal) (lin : SL.Idx → EReal) (b : Fin 128) (s t : Fin 32) : EReal :=
  ∑ j : Fin 10, ∑ p : Fin 5000, Ideal.tanh (zk x v lin (node j p) s t) * hit batch (node j p) b

/-- The number of graph `b`'s nodes, block by block. -/
def cntK (batch : SB.Idx → BitVec 32) (b : Fin 128) : EReal :=
  ∑ j : Fin 10, ∑ p : Fin 5000, hit batch (node j p) b

/-- The transform in the tangent arrangement. -/
def ectK (x : SX.Idx → EReal) (batch : SB.Idx → BitVec 32) (v : SV.Idx → EReal) (lin : SL.Idx → EReal) : SO.Idx → EReal :=
  fun i => cHalf * (accK x batch v lin (i 0) (i 1) (i 2) + cntK batch (i 0))

end Cert.Ect

end
-- ==== Proof.EctAlgebra.lean ====
/-
  The two arrangements of the transform are one function when every float argument is finite.
-/
import proofs.«123673_g1803886264527_cont_8to1_34_7_alg».proof.Proof.EctSpec

noncomputable section

open scoped BigOperators

namespace Cert.Ect

open Idealize.ShloMosaic Idealize.ShloMosaic.ValueIdx

/-- The word of a hundred denotes the real hundred. -/
theorem c100_eq : c100 = ((100 : ℝ) : EReal) := by
  unfold c100; simp [Ideal.ofBits, Ideal.ieee, -EReal.coe_mul]; norm_num

/-- The word of two hundred denotes the real two hundred. -/
theorem c200_eq : c200 = ((200 : ℝ) : EReal) := by
  unfold c200; simp [Ideal.ofBits, Ideal.ieee, -EReal.coe_mul]; norm_num

/-- The word of one denotes the real one. -/
theorem cOne_eq : cOne = ((1 : ℝ) : EReal) := by
  unfold cOne; simp [Ideal.ofBits, Ideal.ieee, -EReal.coe_mul]; norm_num

/-- The word of one half denotes the real one half. -/
theorem cHalf_eq : cHalf = (((1 : ℝ) / 2 : ℝ) : EReal) := by
  unfold cHalf; simp [Ideal.ofBits, Ideal.ieee, -EReal.coe_mul]; norm_num

/-- The coercion of a finite real sum is the sum of the coercions. -/
theorem coe_finset_sum {ι : Type*} (s : Finset ι) (f : ι → ℝ) :
    (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- The smoothed step through the hyperbolic tangent: `½·(tanh u + 1) = 1 / (1 + exp (−2u))`. -/
theorem half_tanh (u : ℝ) : (1 / 2 : ℝ) * (Real.tanh u * 1 + 1) = 1 / (1 + Real.exp (-(2 * u))) := by
  have hp : 0 < Real.exp u := Real.exp_pos u
  have hn : 0 < Real.exp (-u) := Real.exp_pos (-u)
  have h2 : Real.exp (-(2 * u)) = Real.exp (-u) * Real.exp (-u) := by
    rw [← Real.exp_add]; congr 1; ring
  have h1 : Real.exp u * Real.exp (-u) = 1 := by rw [← Real.exp_add]; simp
  rw [Real.tanh_eq_sinh_div_cosh, Real.sinh_eq, Real.cosh_eq, h2]
  have hu : Real.exp u = 1 / Real.exp (-u) := by field_simp; linarith
  rw [hu]
  field_simp
  ring

/-- The blocks of five thousand exhaust the nodes: a sum over blocks and places is the sum over nodes. -/
theorem sum_node {M : Type*} [AddCommMonoid M] (F : Fin 50000 → M) :
    ∑ j : Fin 10, ∑ p : Fin 5000, F (node j p) = ∑ e : Fin 50000, F e := by
  refine (Fintype.sum_prod_type' (fun (j : Fin 10) (p : Fin 5000) => F (node j p))).symm.trans ?_
  refine Fintype.sum_bijective (fun q : Fin 10 × Fin 5000 => node q.1 q.2) ?_ _ _ (fun _ => rfl)
  constructor
  · rintro ⟨j, p⟩ ⟨j', p'⟩ h
    have h' : 5000 * j.val + p.val = 5000 * j'.val + p'.val := congrArg Fin.val h
    have hp := p.isLt
    have hp' := p'.isLt
    have e1 : j.val = j'.val := by omega
    have e2 : p.val = p'.val := by omega
    exact Prod.ext (Fin.ext e1) (Fin.ext e2)
  · intro e
    have he := e.isLt
    refine ⟨(⟨e.val / 5000, by omega⟩, ⟨e.val % 5000, by omega⟩), ?_⟩
    apply Fin.ext
    show 5000 * (e.val / 5000) + e.val % 5000 = e.val
    omega

/-- The height over the reals. -/
def projR (xr : SX.Idx → ℝ) (vr : SV.Idx → ℝ) (e : Fin 50000) (t : Fin 32) : ℝ :=
  ∑ k : Fin 128, xr (ix2 e k) * vr (ix2 k t)

/-- The smoothed step over the reals. -/
def bumpR (xr : SX.Idx → ℝ) (vr : SV.Idx → ℝ) (lr : SL.Idx → ℝ) (e : Fin 50000) (s t : Fin 32) : ℝ :=
  1 / (1 + Real.exp (-(200 * (lr (ix3 s 0 0) - projR xr vr e t))))

/-- The tangent arrangement's argument over the reals. -/
def zkR (xr : SX.Idx → ℝ) (vr : SV.Idx → ℝ) (lr : SL.Idx → ℝ) (e : Fin 50000) (s t : Fin 32) : ℝ :=
  100 * lr (ix3 s 0 0) - 100 * ∑ k : Fin 128, vr (ix2 k t) * xr (ix2 e k)

/-- The indicator over the reals. -/
def hitR (batch : SB.Idx → BitVec 32) (e : Fin 50000) (b : Fin 128) : ℝ :=
  if (batch (ix1 e)).toInt = (b.val : ℤ) then 1 else 0

section Coe
variable (x : SX.Idx → EReal) (batch : SB.Idx → BitVec 32) (v : SV.Idx → EReal) (lin : SL.Idx → EReal)
  (xr : SX.Idx → ℝ) (vr : SV.Idx → ℝ) (lr : SL.Idx → ℝ)
  (hx : ∀ i, x i = (xr i : EReal)) (hv : ∀ i, v i = (vr i : EReal)) (hl : ∀ i, lin i = (lr i : EReal))
include hx hv

/-- The height of finite features along a finite direction is the real height. -/
theorem proj_coe (e : Fin 50000) (t : Fin 32) : proj x v e t = ((projR xr vr e t : ℝ) : EReal) := by
  unfold proj projR
  rw [coe_finset_sum]
  refine Finset.sum_congr rfl (fun k _ => ?_)
  rw [hx, hv, EReal.coe_mul]

include hl

/-- The step of finite arguments is the real step. -/
theorem bump_coe (e : Fin 50000) (s t : Fin 32) :
    bump x v lin e s t = ((bumpR xr vr lr e s t : ℝ) : EReal) := by
  unfold bump bumpR
  rw [proj_coe x v xr vr hx hv, hl, cOne_eq, c200_eq, ← EReal.coe_sub, ← EReal.coe_mul, ← EReal.coe_neg,
    Ideal.exp_coe, ← EReal.coe_add]
  have hne : (1 + Real.exp (-(200 * (lr (ix3 s 0 0) - projR xr vr e t)))) ≠ 0 := by positivity
  rw [Ideal.div_coe hne, ← EReal.coe_mul, one_mul]

/-- The tangent argument of finite arguments is the real one. -/
theorem zk_coe (e : Fin 50000) (s t : Fin 32) :
    zk x v lin e s t = ((zkR xr vr lr e s t : ℝ) : EReal) := by
  unfold zk zkR
  have hs : (∑ k : Fin 128, v (ix2 k t) * x (ix2 e k))
      = ((∑ k : Fin 128, vr (ix2 k t) * xr (ix2 e k) : ℝ) : EReal) := by
    rw [coe_finset_sum]
    refine Finset.sum_congr rfl (fun k _ => ?_)
    rw [hx, hv, EReal.coe_mul]
  rw [hs, hl, c100_eq, ← EReal.coe_mul, ← EReal.coe_mul, ← EReal.coe_sub]

omit hx hv hl in
/-- The indicator is the coercion of the real indicator. -/
theorem hit_coe (e : Fin 50000) (b : Fin 128) : hit batch e b = ((hitR batch e b : ℝ) : EReal) := by
  unfold hit hitw hitR
  split_ifs
  · exact EReal.coe_one.symm
  · exact EReal.coe_zero.symm

/-- One node's tangent and count, together, over the reals. -/
theorem term_coe (e : Fin 50000) (b : Fin 128) (s t : Fin 32) :
    Ideal.tanh (zk x v lin e s t) * hit batch e b + hit batch e b
      = ((Real.tanh (zkR xr vr lr e s t) * hitR batch e b + hitR batch e b : ℝ) : EReal) := by
  rw [zk_coe x v lin xr vr lr hx hv hl, hit_coe, Ideal.tanh_coe, ← EReal.coe_mul, ← EReal.coe_add]

end Coe

/-- Half of one node's tangent and count is its step inside the graph and nothing outside. -/
theorem half_term (batch : SB.Idx → BitVec 32) (xr : SX.Idx → ℝ) (vr : SV.Idx → ℝ) (lr : SL.Idx → ℝ)
    (e : Fin 50000) (b : Fin 128) (s t : Fin 32) :
    (1 / 2 : ℝ) * (Real.tanh (zkR xr vr lr e s t) * hitR batch e b + hitR batch e b)
      = if (batch (ix1 e)).toInt = (b.val : ℤ) then bumpR xr vr lr e s t else 0 := by
  unfold hitR
  split_ifs with h
  · rw [half_tanh]
    unfold bumpR zkR projR
    have hc : (∑ k : Fin 128, vr (ix2 k t) * xr (ix2 e k)) = ∑ k : Fin 128, xr (ix2 e k) * vr (ix2 k t) :=
      Finset.sum_congr rfl (fun k _ => mul_comm _ _)
    rw [hc]
    congr 3
    ring
  · simp

/-- The two arrangements at one index. -/
theorem ectK_point (x : SX.Idx → EReal) (batch : SB.Idx → BitVec 32) (v : SV.Idx → EReal) (lin : SL.Idx → EReal)
    (xr : SX.Idx → ℝ) (vr : SV.Idx → ℝ) (lr : SL.Idx → ℝ)
    (hx : ∀ i, x i = (xr i : EReal)) (hv : ∀ i, v i = (vr i : EReal)) (hl : ∀ i, lin i = (lr i : EReal))
    (b : Fin 128) (s t : Fin 32) :
    cHalf * (accK x batch v lin b s t + cntK batch b)
      = ∑ e ∈ Finset.univ.filter (fun e : Fin 50000 => (batch (ix1 e)).toInt = (b.val : ℤ)), bump x v lin e s t := by
  unfold accK cntK
  rw [sum_node (fun e => Ideal.tanh (zk x v lin e s t) * hit batch e b), sum_node (fun e => hit batch e b),
    ← Finset.sum_add_distrib]
  rw [Finset.sum_congr rfl (fun e _ => term_coe x batch v lin xr vr lr hx hv hl e b s t), ← coe_finset_sum, cHalf_eq,
    ← EReal.coe_mul, Finset.mul_sum]
  rw [Finset.sum_congr rfl (fun e _ => half_term batch xr vr lr e b s t), ← Finset.sum_filter, coe_finset_sum]
  exact Finset.sum_congr rfl (fun e _ => (bump_coe x v lin xr vr lr hx hv hl e s t).symm)

theorem ectK_eq_ect (x : SX.Idx → EReal) (batch : SB.Idx → BitVec 32) (v : SV.Idx → EReal) (lin : SL.Idx → EReal)
    (hx : ∀ i, ∃ r : ℝ, x i = (r : EReal)) (hv : ∀ i, ∃ r : ℝ, v i = (r : EReal)) (hl : ∀ i, ∃ r : ℝ, lin i = (r : EReal)) :
    ectK x batch v lin = ect x batch v lin := by
  choose xr hxr using hx
  choose vr hvr using hv
  choose lr hlr using hl
  funext i
  exact ectK_point x batch v lin xr vr lr hxr hvr hlr (i 0) (i 1) (i 2)

end Cert.Ect

end
-- ==== Proof.EctFinite.lean ====
/-
  The precondition says every entry of the three float arguments is a real number.
-/
import proofs.«123673_g1803886264527_cont_8to1_34_7_alg».proof.Pre_finite_inputs
import Idealize.ShloMosaic.PureOps.Ideal
import Idealize.ShloMosaic.Lib.ReduceAll

noncomputable section

namespace Cert.Ect

open Idealize.ShloMosaic

/-- An extended real whose absolute value max a (-a) lies strictly below ⊤ is a real number:
    ⊤ itself fails the bound, and ⊥ fails it because -⊥ = ⊤. -/
theorem real_of_abs_lt_top (a : EReal) (h : max a (-a) < ⊤) : ∃ r : ℝ, a = r := by
  induction a using EReal.rec with
  | bot => exact absurd h (by simp)
  | coe r => exact ⟨r, rfl⟩
  | top => exact absurd h (by simp)

/-- The word 0x7F800000 (sign 0, exponent all ones, significand 0) denotes +∞. -/
theorem ofBits_inf : Ideal.ofBits .f32 0x7F800000#32 = ⊤ := by simp [Ideal.ofBits, Ideal.ieee]

/-- One entry: if |x i| < c i holds as a comparison word and c i is +∞, then x i is real. -/
theorem real_of_olt_inf {s : Shape} (x c : FVec Ideal s .f32) (i : s.Idx)
    (hc : c i = Ideal.ofBits .f32 0x7F800000#32)
    (h : cmpf .olt (Host.absf x) c i = 1#1) : ∃ r : ℝ, x i = (r : EReal) := by
  have h' : Ideal.cmp .olt (max (x i : EReal) (-(x i : EReal))) (c i) = 1#1 := h
  rw [hc, ofBits_inf] at h'
  unfold Ideal.cmp at h'
  refine real_of_abs_lt_top (x i) ?_
  by_contra hn
  simp [hn] at h'

instance : Subsingleton Cert.Pre_finite_inputs.S_.Idx := ⟨fun a b => funext fun d => d.elim0⟩

theorem finite_of_pre [Cert.Pre_finite_inputs.Facts]
    (x : FVec Ideal Cert.Pre_finite_inputs.S50000x128 .f32) (batch : IVec Cert.Pre_finite_inputs.S50000 32)
    (v : FVec Ideal Cert.Pre_finite_inputs.S128x32 .f32) (lin : FVec Ideal Cert.Pre_finite_inputs.S32x1x1 .f32)
    (h : Cert.Pre_finite_inputs.fn (F := Ideal) x batch v lin = fun _ => 1#1) :
    (∀ i, ∃ r : ℝ, x i = (r : EReal)) ∧ (∀ i, ∃ r : ℝ, v i = (r : EReal)) ∧ (∀ i, ∃ r : ℝ, lin i = (r : EReal)) := by
  have h0 := congrFun h (fun a => a.elim0 : Cert.Pre_finite_inputs.S_.Idx)
  dsimp only [Cert.Pre_finite_inputs.fn] at h0
  obtain ⟨h01, hlin⟩ := IntOp.andi_eq_one.1 h0
  obtain ⟨hx, hv⟩ := IntOp.andi_eq_one.1 h01
  refine ⟨fun i => ?_, fun i => ?_, fun i => ?_⟩
  · exact real_of_olt_inf x _ i rfl (Host.reduce_andi_all _ _ _ _ _ hx i)
  · exact real_of_olt_inf v _ i rfl (Host.reduce_andi_all _ _ _ _ _ hv i)
  · exact real_of_olt_inf lin _ i rfl (Host.reduce_andi_all _ _ _ _ _ hlin i)

end Cert.Ect

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.LibSegmentSumPlanes.lean ====
/-
  A segment sum of planes read at one index, at the ideal instance (floats are extended reals).

  The operand has three axes (segment, row, column); each update plane carries one index word naming its segment; the
  segment axis is inserted and the two plane axes are the update's own. An update element lands on (segment i, row a,
  column c) exactly when its plane's index word, read signed, is i and its own row and column are a and c; out-of-range
  words land nowhere.
-/
import Idealize.ShloMosaic.PureOps.Ideal
import Idealize.ShloMosaic.PureOps.Contract
import Idealize.ShloMosaic.Lib.ValueIdx
import proofs.«123673_g1803886264527_cont_8to1_34_7_alg».proof.Proof.LibSegmentSum

noncomputable section

open scoped BigOperators

namespace Cert.LibSegmentSum

open Idealize.ShloMosaic Idealize.ShloMosaic.ValueIdx

/-! ## Lists of two entries -/

/-- The entry at position 0 of a two-element list is its first element. -/
theorem getElem_of_eq_pair_zero {α : Type} {l : List α} {a b : α} (hl : l = [a, b]) (k : Nat) (h : k < l.length) (hk : k = 0) :
    l[k] = a := by
  subst hl; subst hk; rfl

/-- The entry at position 1 of a two-element list is its second element. -/
theorem getElem_of_eq_pair_one {α : Type} {l : List α} {a b : α} (hl : l = [a, b]) (k : Nat) (h : k < l.length) (hk : k = 1) :
    l[k] = b := by
  subst hl; subst hk; rfl

/-! ## A rank-3 index set is the product of its coordinate ranges -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Segment sum of planes -/

section Planes

variable {N M D E w : Nat} (d : ScatterDims ⟨3, ![N, D, E]⟩ ⟨2, ![M, 1]⟩ ⟨3, ![M, D, E]⟩)

/-- The operand's kept axes are the two plane axes. -/
theorem sKept_planes (hiw : d.insertedWindowDims = [0]) : d.sKept = [(1 : Fin 3), 2] := by
  change (⟨3, ![N, D, E]⟩ : Shape).kept d.insertedWindowDims = [1, 2]
  rw [hiw]; rfl

/-- On the segment axis the window's start is the update plane's index word, read signed. -/
theorem start_planes0 (huw : d.updateWindowDims = [1, 2]) (hsd : d.scatterDimsToOperandDims = [0]) (hiv : d.indexVectorDim = 1)
    (idx : IVec ⟨2, ![M, 1]⟩ w) (e : Fin M) (a' : Fin D) (c' : Fin E) :
    d.start (ix3 e a' c') idx 0 = (idx (ix2 e 0)).toInt := by
  have hm : (0 : Fin 3) ∈ d.scatterDimsToOperandDims := by rw [hsd]; exact List.mem_singleton.mpr rfl
  -- the updates' one scatter axis is axis 0
  have hus : d.uScatter = [(0 : Fin 3)] := by
    change (⟨3, ![M, D, E]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 3, X = 0 → ((ix3 e a' c' : (⟨3, ![M, D, E]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 3) d.scatterDimsToOperandDims = 0
    rw [hsd]; simp

/-- The row axis is not named by the index: its window starts at zero. -/
theorem start_planes1 (hsd : d.scatterDimsToOperandDims = [0]) (idx : IVec ⟨2, ![M, 1]⟩ w) (j : (⟨3, ![M, D, E]⟩ : Shape).Idx) :
    d.start j idx 1 = 0 := by
  unfold ScatterDims.start
  rw [dif_neg (by rw [hsd]; simp)]

/-- The column axis is not named by the index: its window starts at zero. -/
theorem start_planes2 (hsd : d.scatterDimsToOperandDims = [0]) (idx : IVec ⟨2, ![M, 1]⟩ w) (j : (⟨3, ![M, D, E]⟩ : Shape).Idx) :
    d.start j idx 2 = 0 := by
  unfold ScatterDims.start
  rw [dif_neg (by rw [hsd]; simp)]

/-- The segment axis is inserted: the update has no coordinate inside the window there. -/
theorem window_planes0 (hiw : d.insertedWindowDims = [0]) (j : (⟨3, ![M, D, E]⟩ : Shape).Idx) : d.window j 0 = 0 := by
  unfold ScatterDims.window
  rw [dif_neg]
  rw [sKept_planes d hiw]
  simp

/-- On the row axis the window coordinate is the update's row. -/
theorem window_planes1 (huw : d.updateWindowDims = [1, 2]) (hiw : d.insertedWindowDims = [0]) (e : Fin M) (a' : Fin D) (c' : Fin E) :
    d.window (ix3 e a' c') 1 = a'.val := by
  have hsk := sKept_planes d hiw
  have hk : (1 : Fin 3) ∈ d.sKept := by rw [hsk]; simp
  have hp : d.sKept.idxOf (1 : Fin 3) = 0 := by rw [hsk]; rfl
  unfold ScatterDims.window
  rw [dif_pos hk]
  have row : ∀ X : Fin 3, X = 1 → ((ix3 e a' c' : (⟨3, ![M, D, E]⟩ : Shape).Idx) X).val = a'.val := by
    rintro _ rfl; rfl
  exact row _ (getElem_of_eq_pair_zero huw _ _ hp)

/-- On the column axis the window coordinate is the update's column. -/
theorem window_planes2 (huw : d.updateWindowDims = [1, 2]) (hiw : d.insertedWindowDims = [0]) (e : Fin M) (a' : Fin D) (c' : Fin E) :
    d.window (ix3 e a' c') 2 = c'.val := by
  have hsk := sKept_planes d hiw
  have hk : (2 : Fin 3) ∈ d.sKept := by rw [hsk]; simp
  have hp : d.sKept.idxOf (2 : Fin 3) = 1 := by rw [hsk]; rfl
  unfold ScatterDims.window
  rw [dif_pos hk]
  have col : ∀ X : Fin 3, X = 2 → ((ix3 e a' c' : (⟨3, ![M, D, E]⟩ : Shape).Idx) X).val = c'.val := by
    rintro _ rfl; rfl
  exact col _ (getElem_of_eq_pair_one huw _ _ hp)

end Planes

section PlanesMain

variable {N M D E w : Nat} (d : ScatterDims ⟨3, ![N, D, E]⟩ ⟨2, ![M, 1]⟩ ⟨3, ![M, D, E]⟩)

/-- An update element lands on (segment `i`, row `a`, column `c`) exactly when its plane's index word, read signed, is `i`
    and its own row and column are `a` and `c`. -/
theorem resultIdx_planes (huw : d.updateWindowDims = [1, 2]) (hiw : d.insertedWindowDims = [0]) (hsd : d.scatterDimsToOperandDims = [0])
    (hiv : d.indexVectorDim = 1) (idx : IVec ⟨2, ![M, 1]⟩ w) (e : Fin M) (a' : Fin D) (c' : Fin E) (i : Fin N) (a : Fin D) (c : Fin E) :
    d.resultIdx? (ix3 e a' c') idx = some (ix3 i a c) ↔ ((idx (ix2 e 0)).toInt = (i.val : ℤ) ∧ a' = a ∧ c' = c) := by
  have hs0 := start_planes0 d huw hsd hiv idx e a' c'
  have hs1 := start_planes1 d hsd idx (ix3 e a' c')
  have hs2 := start_planes2 d hsd idx (ix3 e a' c')
  have hw0 := window_planes0 d hiw (ix3 e a' c')
  have hw1 := window_planes1 d huw hiw e a' c'
  have hw2 := window_planes2 d huw hiw e a' c'
  have hi := i.isLt
  have ha := a.isLt
  have hc := c.isLt
  have ha' := a'.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have h2 := congrArg Fin.val (congrFun hf 2)
      have hb := hall 0
      rw [hs0, hw0] at hb
      change (d.start (ix3 e a' c') idx 0 + (d.window (ix3 e a' c') 0 : ℤ)).toNat = i.val at h0
      change (d.start (ix3 e a' c') idx 1 + (d.window (ix3 e a' c') 1 : ℤ)).toNat = a.val at h1
      change (d.start (ix3 e a' c') idx 2 + (d.window (ix3 e a' c') 2 : ℤ)).toNat = c.val at h2
      rw [hs0, hw0] at h0
      rw [hs1, hw1] at h1
      rw [hs2, hw2] at h2
      exact ⟨by omega, Fin.ext (by omega), Fin.ext (by omega)⟩
    · cases h
  · rintro ⟨h, rfl, rfl⟩
    have hall : ∀ b, 0 ≤ d.start (ix3 e a' c') idx b + d.window (ix3 e a' c') b ∧
        d.start (ix3 e a' c') idx b + d.window (ix3 e a' c') b < (⟨3, ![N, D, E]⟩ : Shape).size b := by
      refine Fin.forall_fin_succ.mpr ⟨?_, Fin.forall_fin_two.mpr ⟨?_, ?_⟩⟩
      · rw [hs0, hw0]
        change 0 ≤ (idx (ix2 e 0)).toInt + ((0 : ℕ) : ℤ) ∧ (idx (ix2 e 0)).toInt + ((0 : ℕ) : ℤ) < (N : ℤ)
        omega
      · change 0 ≤ d.start (ix3 e a' c') idx 1 + (d.window (ix3 e a' c') 1 : ℤ) ∧
          d.start (ix3 e a' c') idx 1 + (d.window (ix3 e a' c') 1 : ℤ) < (D : ℤ)
        rw [hs1, hw1]
        omega
      · change 0 ≤ d.start (ix3 e a' c') idx 2 + (d.window (ix3 e a' c') 2 : ℤ) ∧
          d.start (ix3 e a' c') idx 2 + (d.window (ix3 e a' c') 2 : ℤ) < (E : ℤ)
        rw [hs2, hw2]
        omega
    unfold ScatterDims.resultIdx?
    rw [dif_pos hall]
    congr 1
    funext b
    apply Fin.ext
    revert b
    refine Fin.forall_fin_succ.mpr ⟨?_, Fin.forall_fin_two.mpr ⟨?_, ?_⟩⟩
    · change (d.start (ix3 e a' c') idx 0 + (d.window (ix3 e a' c') 0 : ℤ)).toNat = i.val
      rw [hs0, hw0]
      omega
    · change (d.start (ix3 e a' c') idx 1 + (d.window (ix3 e a' c') 1 : ℤ)).toNat = a'.val
      rw [hs1, hw1]
      omega
    · change (d.start (ix3 e a' c') idx 2 + (d.window (ix3 e a' c') 2 : ℤ)).toNat = c'.val
      rw [hs2, hw2]
      omega

end PlanesMain

/-- A segment sum of planes read at (segment, row, column): the operand there plus the updates, at that row and column,
    of the planes whose index word, read signed, is that segment. -/
theorem scatterAdd_segPlanes {N M D E w : Nat} (d : ScatterDims ⟨3, ![N, D, E]⟩ ⟨2, ![M, 1]⟩ ⟨3, ![M, D, E]⟩)
    (huw : d.updateWindowDims = [1, 2]) (hiw : d.insertedWindowDims = [0]) (hsd : d.scatterDimsToOperandDims = [0]) (hiv : d.indexVectorDim = 1)
    (x : (⟨3, ![N, D, E]⟩ : Shape).Idx → EReal) (idx : IVec ⟨2, ![M, 1]⟩ w) (upd : (⟨3, ![M, D, E]⟩ : Shape).Idx → EReal)
    (i : Fin N) (a : Fin D) (c : Fin E) :
    Host.scatterAdd (F := Ideal) (φ := .f32) d x idx upd (ix3 i a c)
      = x (ix3 i a c) + ∑ e ∈ Finset.univ.filter (fun e : Fin M => (idx (ix2 e 0)).toInt = (i.val : ℤ)), upd (ix3 e a c) := by
  change x (ix3 i a c) + ∑ j ∈ Finset.univ.filter (fun j => d.resultIdx? j idx = some (ix3 i a c)), upd j = _
  congr 1
  -- a sum over the update indices is the triple sum over (plane, row, column); in each plane only (row a, column c) can land
  rw [Finset.sum_filter, Finset.sum_filter, sum_idx3]
  refine Finset.sum_congr rfl fun e _ => ?_
  simp only [resultIdx_planes d huw hiw hsd hiv idx]
  by_cases hP : (idx (ix2 e 0)).toInt = (i.val : ℤ)
  · simp only [hP, true_and, if_true]
    rw [Finset.sum_eq_single a]
    · rw [Finset.sum_eq_single c]
      · simp
      · intro c' _ hc'; simp [hc']
      · intro h; exact absurd (Finset.mem_univ c) h
    · intro a' _ ha'
      refine Finset.sum_eq_zero fun c' _ => ?_
      simp [ha']
    · intro h; exact absurd (Finset.mem_univ a) h
  · simp [hP]

end Cert.LibSegmentSum

end
-- ==== Proof.EctReference.lean ====
/-
  The reference program's result, at the ideal instance, is the transform `ect` of its arguments.
-/
import proofs.«123673_g1803886264527_cont_8to1_34_7_alg».proof.Proof.Gen.ReferenceIdeal.Run
import proofs.«123673_g1803886264527_cont_8to1_34_7_alg».proof.Proof.Gen.ReferenceIdeal.Read
import proofs.«123673_g1803886264527_cont_8to1_34_7_alg».proof.Proof.EctSpec
import proofs.«123673_g1803886264527_cont_8to1_34_7_alg».proof.Proof.LibSegmentSumPlanes

noncomputable section

open scoped BigOperators

namespace Cert.Ect.Ref

open Idealize.ShloMosaic Idealize.ShloMosaic.ValueIdx Cert.ReferenceIdeal Cert.ReferenceIdeal.Gen Cert.Ect

/-! ## The composed index maps, by coordinates -/

/-- The threshold read by update element (node e, threshold s, direction t) is threshold s. -/
theorem idx_lin (e : Fin 50000) (s t : Fin 32) :
    Read.idx_main_v2 (Read.idx_main_v13 (ix3 e s t)) = ix3 s 0 0 :=
  funext fun a => Fin.ext (by match a with | ⟨0, _⟩ => rfl | ⟨1, _⟩ => rfl | ⟨2, _⟩ => rfl)

/-- The feature read by update element (e, s, t) at contraction position k is feature k of node e. -/
theorem idx_lhs (e : Fin 50000) (s t : Fin 32) (k : Fin 128) :
    Read.lidx_main_v0 (Read.idx_main_v1 (Read.idx_main_v3 (Read.idx_main_v13 (ix3 e s t)))) k = ix2 e k :=
  funext fun a => Fin.ext (by match a with | ⟨0, _⟩ => rfl | ⟨1, _⟩ => rfl)

/-- The direction entry read by update element (e, s, t) at contraction position k is row k of direction t. -/
theorem idx_rhs (e : Fin 50000) (s t : Fin 32) (k : Fin 128) :
    Read.ridx_main_v0 (Read.idx_main_v1 (Read.idx_main_v3 (Read.idx_main_v13 (ix3 e s t)))) k = ix2 k t :=
  funext fun a => Fin.ext (by match a with | ⟨0, _⟩ => rfl | ⟨1, _⟩ => rfl)

/-- The segment word read at row e of the one-column index table is node e's. -/
theorem idx_batch (e : Fin 50000) : Read.idx_main_v15 (ix2 e (0 : Fin 1)) = ix1 e :=
  funext fun a => Fin.ext (by match a with | ⟨0, _⟩ => rfl)

/-! ## One update element -/

/-- The update element at (node e, threshold s, direction t) is the smoothed step of node e there. -/
theorem upd_apply (x0 : (⟨S50000x128, .f32⟩ : BufTy).Contents (Elt Ideal)) (x2 : (⟨S128x32, .f32⟩ : BufTy).Contents (Elt Ideal))
    (x3 : (⟨S32x1x1, .f32⟩ : BufTy).Contents (Elt Ideal)) (e : Fin 50000) (s t : Fin 32) :
    Read.val_main_v13 (F := Ideal) x0 x2 x3 (ix3 e s t) = bump x0 x2 x3 e s t := by
  rw [Read.val_main_v13_apply, Read.val_main_v12_apply, Read.val_main_v11_apply, Read.val_main_cst_1_apply,
    Read.val_main_v10_apply, Read.val_main_v9_apply, Read.val_main_cst_0_apply, Read.val_main_v8_apply,
    Read.val_main_v7_apply, Read.val_main_v6_apply, Read.val_main_v5_apply, Read.val_main_cst_apply,
    Read.val_main_v4_apply, Read.val_main_v2_apply, Read.val_main_v3_apply, Read.val_main_v1_apply,
    Read.val_main_v0_apply]
  simp only [idx_lin, idx_lhs, idx_rhs, Ideal.hostDivf_def, Ideal.hostUnary_exp_def, Ideal.hostNegf_def, Ideal.negf_def,
    Ideal.mulf_def, Ideal.subf_def, Ideal.addf_def, Ideal.ofBits_def]
  unfold bump proj c200 cOne
  rfl

/-! ## The reference is the transform -/

theorem ref_eq_ect (x0 : (⟨S50000x128, .f32⟩ : BufTy).Contents (Elt Ideal)) (x1 : (⟨S50000, .i32⟩ : BufTy).Contents (Elt Ideal))
    (x2 : (⟨S128x32, .f32⟩ : BufTy).Contents (Elt Ideal)) (x3 : (⟨S32x1x1, .f32⟩ : BufTy).Contents (Elt Ideal)) :
    Cert.ReferenceIdeal.Read.val_main_v16 (F := Ideal) x0 x1 x2 x3 = ect x0 x1 x2 x3 := by
  funext i
  obtain ⟨b, s, t, rfl⟩ : ∃ (b : Fin 128) (s t : Fin 32), i = ix3 b s t := ⟨i 0, i 1, i 2, eq_ix3 i⟩
  unfold Cert.ReferenceIdeal.Read.val_main_v16
  -- the scatter is a segment sum of planes into the zero array
  refine (Cert.LibSegmentSum.scatterAdd_segPlanes (N := 128) (M := 50000) (D := 32) (E := 32) (w := 32)
    scatter_S128x32x32_S50000x1_S50000x32x32_12_0_0_1 rfl rfl rfl rfl _ _ _ b s t).trans ?_
  rw [Read.val_main_v14_apply, Read.val_main_cst_2_apply, Ideal.ofBits_def, Ideal.ofBits_zero_f32, zero_add]
  unfold ect
  refine Finset.sum_congr ?_ fun e _ => upd_apply x0 x2 x3 e s t
  -- the two filters select the same nodes: the index table's row e holds node e's segment word
  refine Finset.filter_congr fun e _ => ?_
  rw [Read.val_main_v15_apply, idx_batch]

end Cert.Ect.Ref

end
-- ==== Proof.EctPayload.lean ====
/-
  The kernel body's stored values read at one index, at the ideal instance: each store's value as a function of the
  blocks the body loaded.
-/
import proofs.«123673_g1803886264527_cont_8to1_34_7_alg».proof.Proof.Gen.KernelIdeal.Skeleton
import proofs.«123673_g1803886264527_cont_8to1_34_7_alg».proof.Proof.EctSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Ect

/-- A column number below 128, as a 32-bit word read signed, is itself. -/
theorem toInt_col (b : Fin 128) : (BitVec.ofNat 32 b.val).toInt = (b.val : ℤ) := by
  have hlt := b.isLt
  have hn : (BitVec.ofNat 32 b.val).toNat = b.val := by
    rw [BitVec.toNat_ofNat]; exact Nat.mod_eq_of_lt (by omega)
  rw [BitVec.toInt_eq_toNat_of_lt (by rw [hn]; omega), hn]

/-- A one-bit word widened to 32 bits and read signed is its bit. -/
theorem toInt_widen_bit : ∀ c : BitVec 1, (c.setWidth 32).toInt = (c.toNat : ℤ) := by decide

/-- The one-hot entry on words: comparing, as reals, column `b` with the word read signed, widening the bit and reading
it back as a real gives one where the word names `b` and zero elsewhere. -/
theorem oneHot_word (w : BitVec 32) (b : Fin 128) :
    ((((Ideal.cmp .oeq (((BitVec.ofNat 32 b.val).toInt : ℝ) : EReal) ((w.toInt : ℝ) : EReal)).setWidth 32).toInt : ℝ) : EReal)
      = hitw w b := by
  unfold hitw Ideal.cmp
  rw [toInt_widen_bit, toInt_col]
  by_cases h : w.toInt = (b.val : ℤ)
  · have e : (((b.val : ℤ) : ℝ) : EReal) = ((w.toInt : ℝ) : EReal) := by rw [h]
    rw [if_pos h, decide_eq_true e]
    show (((1 : ℕ) : ℤ) : ℝ) = (1 : EReal)
    norm_num
  · have e : ¬ (((b.val : ℤ) : ℝ) : EReal) = ((w.toInt : ℝ) : EReal) := fun he =>
      h (Int.cast_injective (EReal.coe_eq_coe_iff.1 he)).symm
    rw [if_neg h, decide_eq_false e]
    show (((0 : ℕ) : ℤ) : ℝ) = (0 : EReal)
    norm_num

/-! The two products' operand indices, coordinate by coordinate. The first contracts the left operand's axis 0 with the
right operand's axis 1 (output `(t, p)` reads `x1[k, t]` and `x0[p, k]`); the second is rows times columns. -/

theorem lhs_dotA_0 (i : S32x5000.Idx) (q : dot_S128x32_S5000x128_S32x5000_0_1_1_0_n_n.contr.Idx) :
    (dot_S128x32_S5000x128_S32x5000_0_1_1_0_n_n.lhsIdx i q 0).val = (q ⟨0, by decide⟩).val :=
  dot_S128x32_S5000x128_S32x5000_0_1_1_0_n_n.lhsIdx_val_of_single rfl i q
theorem lhs_dotA_1 (i : S32x5000.Idx) (q : dot_S128x32_S5000x128_S32x5000_0_1_1_0_n_n.contr.Idx) :
    (dot_S128x32_S5000x128_S32x5000_0_1_1_0_n_n.lhsIdx i q 1).val = (i 0).val := by
  unfold DotDims.lhsIdx
  rw [dif_neg (show ¬(1 : Fin S128x32.rank) ∈ dot_S128x32_S5000x128_S32x5000_0_1_1_0_n_n.lhsBatch by decide), dif_pos (show (1 : Fin S128x32.rank) ∈ dot_S128x32_S5000x128_S32x5000_0_1_1_0_n_n.lhsNonContracting by decide)]
  rfl
theorem rhs_dotA_0 (i : S32x5000.Idx) (q : dot_S128x32_S5000x128_S32x5000_0_1_1_0_n_n.contr.Idx) :
    (dot_S128x32_S5000x128_S32x5000_0_1_1_0_n_n.rhsIdx i q 0).val = (i 1).val := by
  unfold DotDims.rhsIdx
  rw [dif_neg (show ¬(0 : Fin S5000x128.rank) ∈ dot_S128x32_S5000x128_S32x5000_0_1_1_0_n_n.rhsBatch by decide), dif_pos (show (0 : Fin S5000x128.rank) ∈ dot_S128x32_S5000x128_S32x5000_0_1_1_0_n_n.rhsNonContracting by decide)]
  rfl
theorem rhs_dotA_1 (i : S32x5000.Idx) (q : dot_S128x32_S5000x128_S32x5000_0_1_1_0_n_n.contr.Idx) :
    (dot_S128x32_S5000x128_S32x5000_0_1_1_0_n_n.rhsIdx i q 1).val = (q ⟨0, by decide⟩).val :=
  dot_S128x32_S5000x128_S32x5000_0_1_1_0_n_n.rhsIdx_val_of_single rfl i q

theorem lhs_dotB_0 (i : S1024x128.Idx) (q : dot_S1024x5000_S5000x128_S1024x128_1_0_0_1_n_n.contr.Idx) :
    (dot_S1024x5000_S5000x128_S1024x128_1_0_0_1_n_n.lhsIdx i q 0).val = (i 0).val := by
  unfold DotDims.lhsIdx
  rw [dif_neg (show ¬(0 : Fin S1024x5000.rank) ∈ dot_S1024x5000_S5000x128_S1024x128_1_0_0_1_n_n.lhsBatch by decide), dif_pos (show (0 : Fin S1024x5000.rank) ∈ dot_S1024x5000_S5000x128_S1024x128_1_0_0_1_n_n.lhsNonContracting by decide)]
  rfl
theorem lhs_dotB_1 (i : S1024x128.Idx) (q : dot_S1024x5000_S5000x128_S1024x128_1_0_0_1_n_n.contr.Idx) :
    (dot_S1024x5000_S5000x128_S1024x128_1_0_0_1_n_n.lhsIdx i q 1).val = (q ⟨0, by decide⟩).val :=
  dot_S1024x5000_S5000x128_S1024x128_1_0_0_1_n_n.lhsIdx_val_of_single rfl i q
theorem rhs_dotB_0 (i : S1024x128.Idx) (q : dot_S1024x5000_S5000x128_S1024x128_1_0_0_1_n_n.contr.Idx) :
    (dot_S1024x5000_S5000x128_S1024x128_1_0_0_1_n_n.rhsIdx i q 0).val = (q ⟨0, by decide⟩).val :=
  dot_S1024x5000_S5000x128_S1024x128_1_0_0_1_n_n.rhsIdx_val_of_single rfl i q
theorem rhs_dotB_1 (i : S1024x128.Idx) (q : dot_S1024x5000_S5000x128_S1024x128_1_0_0_1_n_n.contr.Idx) :
    (dot_S1024x5000_S5000x128_S1024x128_1_0_0_1_n_n.rhsIdx i q 1).val = (i 1).val := by
  unfold DotDims.rhsIdx
  rw [dif_neg (show ¬(1 : Fin S5000x128.rank) ∈ dot_S1024x5000_S5000x128_S1024x128_1_0_0_1_n_n.rhsBatch by decide), dif_pos (show (1 : Fin S5000x128.rank) ∈ dot_S1024x5000_S5000x128_S1024x128_1_0_0_1_n_n.rhsNonContracting by decide)]
  rfl

/-- The first product at `(t, p)`: direction `t`'s column against node `p`'s features. -/
theorem nht_apply (x0 : FVec Ideal S5000x128 .f32) (x1 : FVec Ideal S128x32 .f32) (t : Fin 32) (p : Fin 5000) :
    matmul (F := Ideal) dot_S128x32_S5000x128_S32x5000_0_1_1_0_n_n none x1 x0 (constant S32x5000 .f32 0x00000000#32) (ix2 t p)
      = ∑ k : Fin 128, x1 (ix2 k t) * x0 (ix2 p k) := by
  simp only [matmul]
  rw [Ideal.matmul_constant_zero_apply, ← Equiv.sum_comp (ValueIdx.contrEquiv1 dot_S128x32_S5000x128_S32x5000_0_1_1_0_n_n 128 rfl rfl).symm]
  refine Finset.sum_congr rfl fun k _ => ?_
  have hk := ValueIdx.contrEquiv1_symm_val dot_S128x32_S5000x128_S32x5000_0_1_1_0_n_n 128 rfl rfl k
  have el : dot_S128x32_S5000x128_S32x5000_0_1_1_0_n_n.lhsIdx (ix2 t p) ((ValueIdx.contrEquiv1 dot_S128x32_S5000x128_S32x5000_0_1_1_0_n_n 128 rfl rfl).symm k) = ix2 k t := funext fun a => Fin.ext (by
    match a with
    | ⟨0, _⟩ => exact (lhs_dotA_0 _ _).trans hk
    | ⟨1, _⟩ => exact lhs_dotA_1 _ _)
  have er : dot_S128x32_S5000x128_S32x5000_0_1_1_0_n_n.rhsIdx (ix2 t p) ((ValueIdx.contrEquiv1 dot_S128x32_S5000x128_S32x5000_0_1_1_0_n_n 128 rfl rfl).symm k) = ix2 p k := funext fun a => Fin.ext (by
    match a with
    | ⟨0, _⟩ => exact rhs_dotA_0 _ _
    | ⟨1, _⟩ => exact (rhs_dotA_1 _ _).trans hk)
  rw [el, er]

/-- The tangent's argument as the body builds it: the thresholds' column broadcast along the nodes, minus a hundred times
the first product broadcast along the thresholds and flattened to rows `32·s + t`. -/
def zarg (x0 : FVec Ideal S5000x128 .f32) (x1 : FVec Ideal S128x32 .f32) (x3 : FVec Ideal S1024x1 .f32) :
    FVec Ideal S1024x5000 .f32 :=
  subf (broadcastTo S1024x5000 (shapeCast S1024x1 x3 shapeCasts_S1024x1_S1024x1) broadcasts_S1024x1_S1024x5000)
    (shapeCast S1024x5000
      (broadcastTo S32x32x5000
        (shapeCast S1x32x5000
          (shapeCast S1x32x5000
            (mulf (broadcast S32x5000 (Scalar.ofBits (F := Ideal) .f32 0x42C80000#32))
              (matmul (F := Ideal) dot_S128x32_S5000x128_S32x5000_0_1_1_0_n_n none x1 x0 (constant S32x5000 .f32 0x00000000#32)))
            shapeCasts_S32x5000_S1x32x5000)
          shapeCasts_S1x32x5000_S1x32x5000)
        broadcasts_S1x32x5000_S32x32x5000)
      shapeCasts_S32x32x5000_S1024x5000)

/-- At `(row s t, p)` it is threshold row `32·s + t` minus a hundred times direction `t`'s height of node `p`. -/
theorem zarg_apply (x0 : FVec Ideal S5000x128 .f32) (x1 : FVec Ideal S128x32 .f32) (x3 : FVec Ideal S1024x1 .f32)
    (s t : Fin 32) (p : Fin 5000) :
    zarg x0 x1 x3 (ix2 (row s t) p)
      = x3 (ix2 (row s t) 0) - c100 * ∑ k : Fin 128, x1 (ix2 k t) * x0 (ix2 p k) := by
  have eL : broadcastTo S1024x5000 (shapeCast S1024x1 x3 shapeCasts_S1024x1_S1024x1) broadcasts_S1024x1_S1024x5000
        (ix2 (row s t) p) = x3 (ix2 (row s t) 0) := by
    refine (broadcastTo_apply _ broadcasts_S1024x1_S1024x5000 (ix2 (row s t) p) (ix2 (row s t) (0 : Fin 1)) fun ax =>
      match ax with
      | ⟨0, _⟩ => rfl
      | ⟨1, _⟩ => rfl).trans ?_
    rw [shapeCast_self]
  have eR : shapeCast S1024x5000
        (broadcastTo S32x32x5000
          (shapeCast S1x32x5000
            (shapeCast S1x32x5000
              (mulf (broadcast S32x5000 (Scalar.ofBits (F := Ideal) .f32 0x42C80000#32))
                (matmul (F := Ideal) dot_S128x32_S5000x128_S32x5000_0_1_1_0_n_n none x1 x0 (constant S32x5000 .f32 0x00000000#32)))
              shapeCasts_S32x5000_S1x32x5000)
            shapeCasts_S1x32x5000_S1x32x5000)
          broadcasts_S1x32x5000_S32x32x5000)
        shapeCasts_S32x32x5000_S1024x5000 (ix2 (row s t) p)
      = c100 * ∑ k : Fin 128, x1 (ix2 k t) * x0 (ix2 p k) := by
    refine (shapeCast_apply _ shapeCasts_S32x32x5000_S1024x5000 (ix2 (row s t) p) (ix3 s t p) (by
      rw [Shape.rowMajor_val_three, Shape.rowMajor_val_two]
      show (s.val * 32 + t.val) * 5000 + p.val = (32 * s.val + t.val) * 5000 + p.val
      omega)).trans ?_
    refine (broadcastTo_apply _ broadcasts_S1x32x5000_S32x32x5000 (ix3 s t p) (ix3 (0 : Fin 1) t p) fun ax =>
      match ax with
      | ⟨0, _⟩ => rfl
      | ⟨1, _⟩ => rfl
      | ⟨2, _⟩ => rfl).trans ?_
    rw [shapeCast_self]
    refine (shapeCast_ab_1ab_apply _ shapeCasts_S32x5000_S1x32x5000 0 t p).trans ?_
    show Ideal.ofBits .f32 0x42C80000#32
        * matmul (F := Ideal) dot_S128x32_S5000x128_S32x5000_0_1_1_0_n_n none x1 x0 (constant S32x5000 .f32 0x00000000#32) (ix2 t p)
      = c100 * ∑ k : Fin 128, x1 (ix2 k t) * x0 (ix2 p k)
    rw [nht_apply]
    rfl
  unfold zarg
  show broadcastTo S1024x5000 (shapeCast S1024x1 x3 shapeCasts_S1024x1_S1024x1) broadcasts_S1024x1_S1024x5000 (ix2 (row s t) p)
      - shapeCast S1024x5000
        (broadcastTo S32x32x5000
          (shapeCast S1x32x5000
            (shapeCast S1x32x5000
              (mulf (broadcast S32x5000 (Scalar.ofBits (F := Ideal) .f32 0x42C80000#32))
                (matmul (F := Ideal) dot_S128x32_S5000x128_S32x5000_0_1_1_0_n_n none x1 x0 (constant S32x5000 .f32 0x00000000#32)))
              shapeCasts_S32x5000_S1x32x5000)
            shapeCasts_S1x32x5000_S1x32x5000)
          broadcasts_S1x32x5000_S32x32x5000)
        shapeCasts_S32x32x5000_S1024x5000 (ix2 (row s t) p)
      = _
  rw [eL, eR]

theorem pay1_eq (v : FVec Ideal S1x128 .f32) : k0_pay1 (F := Ideal) v = v := by
  unfold k0_pay1
  exact shapeCast_self v _

theorem pay3_apply (i : S1024x128.Idx) : k0_pay3 (F := Ideal) i = 0 := by
  unfold k0_pay3
  rw [shapeCast_self]
  show Ideal.ofBits .f32 0x00000000#32 = 0
  exact Ideal.ofBits_zero_f32

theorem pay4_apply (i : S8x128.Idx) : k0_pay4 (F := Ideal) i = 0 := by
  unfold k0_pay4
  rw [shapeCast_self]
  show Ideal.ofBits .f32 0x00000000#32 = 0
  exact Ideal.ofBits_zero_f32

theorem pay5_apply (x2 : Vec Ideal S1x5000x1 .i32) (p : Fin 5000) (b : Fin 128) :
    k0_pay5 (F := Ideal) x2 (ix2 p b) = hitw (x2 (ix3 0 p 0)) b := by
  have eI : iota .tc S5000x128 32 [1] iota_S5000x128_d1_w32 (ix2 p b) = BitVec.ofNat 32 b.val :=
    iota_single_apply .tc S5000x128 32 1 iota_S5000x128_d1_w32 (ix2 p b)
  have eC : shapeCast S5000x1 x2 shapeCasts_S1x5000x1_S5000x1 (ix2 p (0 : Fin 1)) = x2 (ix3 0 p 0) :=
    shapeCast_1ab_ab_apply x2 shapeCasts_S1x5000x1_S5000x1 p 0
  have eB : broadcastTo S5000x128 (sitofp (F := Ideal) .f32 (shapeCast S5000x1 x2 shapeCasts_S1x5000x1_S5000x1))
        broadcasts_S5000x1_S5000x128 (ix2 p b)
      = (((x2 (ix3 0 p 0)).toInt : ℝ) : EReal) := by
    refine (broadcastTo_apply _ broadcasts_S5000x1_S5000x128 (ix2 p b) (ix2 p (0 : Fin 1)) fun ax => match ax with
      | ⟨0, _⟩ => rfl
      | ⟨1, _⟩ => rfl).trans ?_
    show (((shapeCast S5000x1 x2 shapeCasts_S1x5000x1_S5000x1 (ix2 p (0 : Fin 1))).toInt : ℝ) : EReal) = _
    rw [eC]
  unfold k0_pay5
  show ((((Ideal.cmp .oeq (((iota .tc S5000x128 32 [1] iota_S5000x128_d1_w32 (ix2 p b)).toInt : ℝ) : EReal)
        (broadcastTo S5000x128 (sitofp (F := Ideal) .f32 (shapeCast S5000x1 x2 shapeCasts_S1x5000x1_S5000x1))
          broadcasts_S5000x1_S5000x128 (ix2 p b))).setWidth 32).toInt : ℝ) : EReal)
      = hitw (x2 (ix3 0 p 0)) b
  rw [eI, eB]
  exact oneHot_word (x2 (ix3 0 p 0)) b

theorem pay6_apply (x0 : Vec Ideal S5000x128 .f32) (x1 : Vec Ideal S128x32 .f32) (x3 : Vec Ideal S1024x1 .f32)
    (x2 : Vec Ideal S1x5000x1 .i32) (a : Vec Ideal S1024x128 .f32) (s t : Fin 32) (b : Fin 128) :
    k0_pay6 (F := Ideal) x0 x1 x3 x2 a (ix2 (row s t) b)
      = a (ix2 (row s t) b)
        + ∑ p : Fin 5000, Ideal.tanh (x3 (ix2 (row s t) 0) - c100 * ∑ k : Fin 128, x1 (ix2 k t) * x0 (ix2 p k))
            * hitw (x2 (ix3 0 p 0)) b := by
  unfold k0_pay6
  show shapeCast S1024x128
        (addf a (matmul (F := Ideal) dot_S1024x5000_S5000x128_S1024x128_1_0_0_1_n_n none (tanh (zarg x0 x1 x3))
          (k0_pay5 (F := Ideal) x2) (constant S1024x128 .f32 0x00000000#32)))
        shapeCasts_S1024x128_S1024x128 (ix2 (row s t) b) = _
  rw [shapeCast_self]
  show a (ix2 (row s t) b)
      + matmul (F := Ideal) dot_S1024x5000_S5000x128_S1024x128_1_0_0_1_n_n none (tanh (zarg x0 x1 x3))
          (k0_pay5 (F := Ideal) x2) (constant S1024x128 .f32 0x00000000#32) (ix2 (row s t) b) = _
  refine congrArg (a (ix2 (row s t) b) + ·) ?_
  simp only [matmul]
  rw [Ideal.matmul_constant_zero_apply, ← Equiv.sum_comp (ValueIdx.contrEquiv1 dot_S1024x5000_S5000x128_S1024x128_1_0_0_1_n_n 5000 rfl rfl).symm]
  refine Finset.sum_congr rfl fun p _ => ?_
  have hk := ValueIdx.contrEquiv1_symm_val dot_S1024x5000_S5000x128_S1024x128_1_0_0_1_n_n 5000 rfl rfl p
  have el : dot_S1024x5000_S5000x128_S1024x128_1_0_0_1_n_n.lhsIdx (ix2 (row s t) b) ((ValueIdx.contrEquiv1 dot_S1024x5000_S5000x128_S1024x128_1_0_0_1_n_n 5000 rfl rfl).symm p) = ix2 (row s t) p := funext fun ax => Fin.ext (by
    match ax with
    | ⟨0, _⟩ => exact lhs_dotB_0 _ _
    | ⟨1, _⟩ => exact (lhs_dotB_1 _ _).trans hk)
  have er : dot_S1024x5000_S5000x128_S1024x128_1_0_0_1_n_n.rhsIdx (ix2 (row s t) b) ((ValueIdx.contrEquiv1 dot_S1024x5000_S5000x128_S1024x128_1_0_0_1_n_n 5000 rfl rfl).symm p) = ix2 p b := funext fun ax => Fin.ext (by
    match ax with
    | ⟨0, _⟩ => exact (rhs_dotB_0 _ _).trans hk
    | ⟨1, _⟩ => exact rhs_dotB_1 _ _)
  rw [el, er, pay5_apply]
  show Ideal.tanh (zarg x0 x1 x3 (ix2 (row s t) p)) * hitw (x2 (ix3 0 p 0)) b = _
  rw [zarg_apply]

theorem pay7_apply (x2 : Vec Ideal S1x5000x1 .i32) (c1 : Vec Ideal S1x128 .f32) (b : Fin 128) :
    k0_pay7 (F := Ideal) x2 c1 (ix2 0 b) = c1 (ix2 0 b) + ∑ p : Fin 5000, hitw (x2 (ix3 0 p 0)) b := by
  have eS : shapeCast S1x128 (multiReduction (F := Ideal) .add [0] S128 (k0_pay5 (F := Ideal) x2) 0x00000000#32
        reduces_S5000x128_S128 (.inl rfl) rfl) shapeCasts_S128_S1x128 (ix2 (0 : Fin 1) b)
      = ∑ p : Fin 5000, hitw (x2 (ix3 0 p 0)) b := by
    refine (shapeCast_a_1a_apply _ shapeCasts_S128_S1x128 0 b).trans ?_
    refine (Ideal.multiReduction_add_single (k0_pay5 (F := Ideal) x2) _ reduces_S5000x128_S128 _ _ (ix1 b)).trans ?_
    refine Finset.sum_congr rfl fun k _ => ?_
    have ek : reduces_S5000x128_S128.lift (ix1 b) k = ix2 k b :=
      funext fun ax => Fin.ext (match ax with | ⟨0, _⟩ => rfl | ⟨1, _⟩ => rfl)
    rw [ek]
    exact pay5_apply x2 k b
  unfold k0_pay7
  show c1 (ix2 0 b) + shapeCast S1x128 (multiReduction (F := Ideal) .add [0] S128 (k0_pay5 (F := Ideal) x2) 0x00000000#32
        reduces_S5000x128_S128 (.inl rfl) rfl) shapeCasts_S128_S1x128 (ix2 (0 : Fin 1) b) = _
  rw [eS]

theorem pay2_apply (a : Vec Ideal S1024x128 .f32) (c1 : Vec Ideal S1x128 .f32) (b : Fin 128) (r : Fin 1024) :
    k0_pay2 (F := Ideal) a c1 (ix2 b r) = cHalf * (a (ix2 r b) + c1 (ix2 0 b)) := by
  unfold k0_pay2
  show Ideal.ofBits .f32 0x3F000000#32
      * (transpose S128x1024 [1, 0] a transposes_S1024x128_p1_0_S128x1024 (ix2 b r)
        + broadcastTo S128x1024 (transpose S128x1 [1, 0] c1 transposes_S1x128_p1_0_S128x1) broadcasts_S128x1_S128x1024 (ix2 b r))
      = cHalf * (a (ix2 r b) + c1 (ix2 0 b))
  have e1 : transpose S128x1024 [1, 0] a transposes_S1024x128_p1_0_S128x1024 (ix2 b r) = a (ix2 r b) :=
    transpose_ix2_apply a transposes_S1024x128_p1_0_S128x1024 b r
  have e2 : broadcastTo S128x1024 (transpose S128x1 [1, 0] c1 transposes_S1x128_p1_0_S128x1) broadcasts_S128x1_S128x1024 (ix2 b r)
      = transpose S128x1 [1, 0] c1 transposes_S1x128_p1_0_S128x1 (ix2 b (0 : Fin 1)) :=
    broadcastTo_apply _ broadcasts_S128x1_S128x1024 (ix2 b r) (ix2 b (0 : Fin 1)) fun ax => match ax with
      | ⟨0, _⟩ => rfl
      | ⟨1, _⟩ => rfl
  have e3 : transpose S128x1 [1, 0] c1 transposes_S1x128_p1_0_S128x1 (ix2 b (0 : Fin 1)) = c1 (ix2 0 b) :=
    transpose_ix2_apply c1 transposes_S1x128_p1_0_S128x1 b 0
  rw [e1, e2, e3]
  rfl

end Cert.KernelIdeal.Pay

end
-- ==== Proof.EctBlocks.lean ====
/-
  What the kernel's windows hold at a grid point, read at one index from the program's arguments, at the ideal instance.
-/
import proofs.«123673_g1803886264527_cont_8to1_34_7_alg».proof.Proof.Gen.KernelIdeal.Frame
import proofs.«123673_g1803886264527_cont_8to1_34_7_alg».proof.Proof.EctSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.Ect

variable (m : (ℓ : Loc nD τ sig) → Buf (Elt Ideal) ℓ)

/-- The four input blocks at grid point `t`, at their literal types. -/
abbrev xblk (c : Dev nD) (t : Fin cfg0.N) : Vec Ideal S5000x128 .f32 := iblk m c 0 t
abbrev vblk (c : Dev nD) (t : Fin cfg0.N) : Vec Ideal S128x32 .f32 := iblk m c 1 t
abbrev bblk (c : Dev nD) (t : Fin cfg0.N) : Vec Ideal S1x5000x1 .i32 := iblk m c 2 t
abbrev lblk (c : Dev nD) (t : Fin cfg0.N) : Vec Ideal S1024x1 .f32 := iblk m c 3 t

theorem xblk_apply (c : Dev nD) (t : Fin cfg0.N) (j : Fin 10) (hj : t.val = j.val) (p : Fin 5000) (k : Fin 128) :
    xblk m c t (ix2 p k) = m ((c : Thread nD τ).loc main_arg0) (ix2 (node j p) k) := by
  have hi : ∀ t : Fin cfg0.N, win0_0.index t 0 = t.val ∧ win0_0.index t 1 = 0 :=
    (by decide +kernel : ∀ t : Fin grid0.N, _)
  show ((cfg0.win 0).blk t).view.read (Elt Ideal) (V m c main_arg0) (ix2 p k) = _
  rw [View.read_apply]
  show V m c main_arg0 _ = m _ _
  rw [V_main_arg0 m c]
  congr 1
  funext a
  apply Fin.ext
  match a with
  | ⟨0, _⟩ =>
    show win0_0.index t 0 * 5000 + 1 * p.val = 5000 * j.val + p.val
    rw [(hi t).1]; omega
  | ⟨1, _⟩ =>
    show win0_0.index t 1 * 128 + 1 * k.val = k.val
    rw [(hi t).2]; omega

theorem vblk_apply (c : Dev nD) (t : Fin cfg0.N) (k : Fin 128) (q : Fin 32) :
    vblk m c t (ix2 k q) = m ((c : Thread nD τ).loc main_arg2) (ix2 k q) := by
  have hi : ∀ t : Fin cfg0.N, win0_1.index t 0 = 0 ∧ win0_1.index t 1 = 0 :=
    (by decide +kernel : ∀ t : Fin grid0.N, _)
  show ((cfg0.win 1).blk t).view.read (Elt Ideal) (V m c main_arg2) (ix2 k q) = _
  rw [View.read_apply]
  show V m c main_arg2 _ = m _ _
  rw [V_main_arg2 m c]
  congr 1
  funext a
  apply Fin.ext
  match a with
  | ⟨0, _⟩ =>
    show win0_1.index t 0 * 128 + 1 * k.val = k.val
    rw [(hi t).1]; omega
  | ⟨1, _⟩ =>
    show win0_1.index t 1 * 32 + 1 * q.val = q.val
    rw [(hi t).2]; omega

/-- The array window 2 stages: the segment words reshaped to ten blocks of five thousand. -/
theorem V_v4 (c : Dev nD) :
    (V m c main_call0_v4 : Vec Ideal S10x5000x1 .i32)
      = shapeCast S10x5000x1 (m ((c : Thread nD τ).loc main_arg1)) shapeCasts_S50000_S10x5000x1 := by
  show StableHlo.after hostOps0 (fun b => m (c, b)) (Proc.devRef .tc main_call0_v4) = _
  after_results
  rfl

/-- The array window 3 stages: the thresholds broadcast along the directions, flattened, times one hundred. -/
theorem V_v3 (c : Dev nD) :
    (V m c main_call0_v3 : Vec Ideal S1024x1 .f32)
      = mulf (broadcastInDim S1024x1 ![] bcast_S_S1024x1 (constant (F := Ideal) S_ .f32 0x42C80000#32))
          (shapeCast S1024x1
            (broadcastInDim S32x32x1 ![0, 1, 2] bcast_S32x1x1_S32x32x1_0_1_2 (m ((c : Thread nD τ).loc main_arg3)))
            shapeCasts_S32x32x1_S1024x1) := by
  show StableHlo.after hostOps0 (fun b => m (c, b)) (Proc.devRef .tc main_call0_v3) = _
  after_results
  rfl

theorem bblk_apply (c : Dev nD) (t : Fin cfg0.N) (j : Fin 10) (hj : t.val = j.val) (p : Fin 5000) :
    bblk m c t (ix3 0 p 0) = m ((c : Thread nD τ).loc main_arg1) (ix1 (node j p)) := by
  have hi : ∀ t : Fin cfg0.N, win0_2.index t 0 = t.val ∧ win0_2.index t 1 = 0 ∧ win0_2.index t 2 = 0 :=
    (by decide +kernel : ∀ t : Fin grid0.N, _)
  show ((cfg0.win 2).blk t).view.read (Elt Ideal) (V m c main_call0_v4) (ix3 0 p 0) = _
  rw [View.read_apply]
  refine (congrArg (V m c main_call0_v4 : Vec Ideal S10x5000x1 .i32) (?_ : _ = ix3 j p (0 : Fin 1))).trans ?_
  · funext a
    apply Fin.ext
    match a with
    | ⟨0, _⟩ =>
      show win0_2.index t 0 * 1 + 1 * ((0 : Fin 1) : Nat) = j.val
      rw [(hi t).1]; simp only [Fin.val_zero]; omega
    | ⟨1, _⟩ =>
      show win0_2.index t 1 * 5000 + 1 * p.val = p.val
      rw [(hi t).2.1]; omega
    | ⟨2, _⟩ =>
      show win0_2.index t 2 * 1 + 1 * ((0 : Fin 1) : Nat) = ((0 : Fin 1) : Nat)
      rw [(hi t).2.2]; omega
  · rw [V_v4 m c]
    refine shapeCast_apply _ _ _ (ix1 (node j p)) ?_
    rw [Shape.rowMajor_val_one, Shape.rowMajor_val_three]
    show 5000 * j.val + p.val = (j.val * 5000 + p.val) * 1 + ((0 : Fin 1) : Nat)
    simp only [Fin.val_zero]; omega

theorem lblk_apply (c : Dev nD) (t : Fin cfg0.N) (s q : Fin 32) :
    lblk m c t (ix2 (row s q) 0) = c100 * m ((c : Thread nD τ).loc main_arg3) (ix3 s 0 0) := by
  have hi : ∀ t : Fin cfg0.N, win0_3.index t 0 = 0 ∧ win0_3.index t 1 = 0 :=
    (by decide +kernel : ∀ t : Fin grid0.N, _)
  show ((cfg0.win 3).blk t).view.read (Elt Ideal) (V m c main_call0_v3) (ix2 (row s q) 0) = _
  rw [View.read_apply]
  refine (congrArg (V m c main_call0_v3 : Vec Ideal S1024x1 .f32) (?_ : _ = ix2 (row s q) (0 : Fin 1))).trans ?_
  · funext a
    apply Fin.ext
    match a with
    | ⟨0, _⟩ =>
      show win0_3.index t 0 * 1024 + 1 * (row s q).val = (row s q).val
      rw [(hi t).1]; omega
    | ⟨1, _⟩ =>
      show win0_3.index t 1 * 1 + 1 * ((0 : Fin 1) : Nat) = ((0 : Fin 1) : Nat)
      rw [(hi t).2]; omega
  · rw [V_v3 m c, ValueIdx.mulf_apply]
    refine congrArg₂ (· * ·) ?_ ?_
    · exact (broadcastInDim_apply _ _ _ _ ix0 (fun a => a.elim0)).trans (constant_apply _ _)
    · refine (shapeCast_apply _ _ _ (ix3 s q (0 : Fin 1)) ?_).trans ?_
      · rw [Shape.rowMajor_val_three, Shape.rowMajor_val_two]
        show (s.val * 32 + q.val) * 1 + ((0 : Fin 1) : Nat) = (32 * s.val + q.val) * 1 + ((0 : Fin 1) : Nat)
        omega
      · exact broadcastInDim_apply _ _ _ _ (ix3 s 0 0)
          (fun a => match a with | ⟨0, _⟩ => rfl | ⟨1, _⟩ => rfl | ⟨2, _⟩ => rfl)

end Cert.KernelIdeal.Blocks

end
-- ==== Proof.EctKernel.lean ====
/-
  The kernel's result, read: after the ten grid points the program's result array holds the transform in its tangent
  arrangement (EctSpec's `ectK`) of the four arguments.

  The kernel carries two buffers between grid points: a [1024, 128] accumulator (row 32·s + t, column b) and an [8, 128]
  count buffer of which only row 0 is used.  The first point zeroes both and then adds its block; every later point adds
  its block to what the point before left; the last point also writes ½ · (accumulatorᵀ + count row) to the output block.
  So after point n the accumulator at (32·s + t, b) is the sum over blocks 0 … n of  ∑ₚ tanh(z) · hit  and the count row at b
  the sum over those blocks of  ∑ₚ hit  (`running`, by induction on the point), where the block's contribution is read from
  the body's stored values at an index (EctPayload) and the windows' blocks from the arguments (EctBlocks).  The last
  point's output block is the whole [128, 1024] result array, and the host's reshape to [128, 32, 32] sends (b, s, t) to
  (b, 32·s + t).
-/
import proofs.«123673_g1803886264527_cont_8to1_34_7_alg».proof.Proof.Gen.KernelIdeal.Frame
import proofs.«123673_g1803886264527_cont_8to1_34_7_alg».proof.Proof.EctSpec
import proofs.«123673_g1803886264527_cont_8to1_34_7_alg».proof.Proof.EctPayload
import proofs.«123673_g1803886264527_cont_8to1_34_7_alg».proof.Proof.EctBlocks
import Idealize.ShloMosaic.Lib.Pipeline.Value
import Idealize.ShloMosaic.Lib.WritesUnit
import Idealize.ShloMosaic.Lib.ValueIdx
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Ect Cert.KernelIdeal.Pay Cert.KernelIdeal.Blocks

theorem hz : (![0, 0] : Fin 2 → Nat) = fun _ => 0 := funext fun a => by fin_cases a <;> rfl

section Pieces

variable (c : Dev nD) (i : grid0.Coords) (a1 : Memref sig .tc .vmem S5000x128 .f32) (h1 : a1.IsWhole)
  (a2 : Memref sig .tc .vmem S128x32 .f32) (h2 : a2.IsWhole) (a3 : Memref sig .tc .vmem S1x5000x1 .i32) (h3 : a3.IsWhole)
  (a4 : Memref sig .tc .vmem S1024x1 .f32) (h4 : a4.IsWhole) (a5 : Memref sig .tc .vmem S128x1024 .f32) (h5 : a5.IsWhole)
  (a6 : Memref sig .tc .vmem S1024x128 .f32) (h6 : a6.IsWhole) (a7 : Memref sig .tc .vmem S8x128 .f32) (h7 : a7.IsWhole)
  (x0 : Vec Ideal S5000x128 .f32) (x1 : Vec Ideal S128x32 .f32) (x2 : Vec Ideal S1x5000x1 .i32) (x3 : Vec Ideal S1024x1 .f32)
  (xs0 : Vec Ideal S1024x128 .f32) (xs1 : Vec Ideal S8x128 .f32)

theorem hz3 : (![0, 0, 0] : Fin 3 → Nat) = fun _ => 0 := funext fun a => by fin_cases a <;> rfl

/-- Row 0, column `b` of the count buffer, seen through the one-row rectangle at the origin, is itself. -/
theorem row0_idx (b : Fin 128) :
    (Rect.unit (s := S8x128) ![0, 0] S1x128.size inb_S8x128_S1x128_0_0).idx (ix2 0 b) = ix2 0 b := by
  funext a
  apply Fin.ext
  match a with
  | ⟨0, _⟩ => rfl
  | ⟨1, _⟩ => show 0 + 1 * b.val = b.val; omega

/-- A grid point after the first adds its block's tangents to the accumulator it found (middle points). -/
theorem accB (hc0 : ¬cond0_0 i) (hc1 : ¬cond0_1 i) :
    sout0_B_0 (F := Ideal) c i a1 h1 a2 h2 a3 h3 a4 h4 a5 h5 a6 h6 a7 h7 hc0 hc1 x0 x1 x2 x3 xs0 xs1 = k0_pay6 x0 x1 x3 x2 xs0 := by
  unfold sout0_B_0
  rw [View.read_writes_eq_canon _ _ _ (scover0_B_0 c i a1 h1 a2 h2 a3 h3 a4 h4 a5 h5 a6 h6 a7 h7 hc0 hc1 x0 x1 x2 x3 xs0 xs1)]
  unfold kernelRun0_B
  dsimp only
  sl_unfold_words
  rw [View.canon_unit_zero hz]
  simp only [View.readAt_eq_ld, h1.read_unread, h2.read_unread, h3.read_unread, h4.read_unread, h6.read_unread,
    View.ld_unit_zero (S := S5000x128) hz, View.ld_unit_zero (S := S128x32) hz, View.ld_unit_zero (S := S1024x1) hz,
    View.ld_unit_zero (S := S1024x128) hz, View.ld_unit_zero (S := S1x5000x1) hz3]

/-- A middle grid point adds its block's node count per graph to row 0 of the count buffer it found. -/
theorem cntB (hc0 : ¬cond0_0 i) (hc1 : ¬cond0_1 i) (b : Fin 128) :
    sout0_B_1 (F := Ideal) c i a1 h1 a2 h2 a3 h3 a4 h4 a5 h5 a6 h6 a7 h7 hc0 hc1 x0 x1 x2 x3 xs0 xs1 (ix2 0 b)
      = xs1 (ix2 0 b) + ∑ p : Fin 5000, hitw (x2 (ix3 0 p 0)) b := by
  unfold sout0_B_1 kernelRun0_B
  dsimp only
  sl_unfold_words
  simp only [View.readAt_eq_ld, h3.read_unread, h7.read_unread, View.ld_unit_zero (S := S1x5000x1) hz3]
  refine (View.read_writes_cons_rows_of_mem a7.view (h7.unread xs1) inb_S8x128_S1x128_0_0 _ [] (ix2 0 b) (ix2 0 b) rfl rfl rfl).trans ?_
  rw [pay1_eq, pay7_apply]
  show xs1 ((Rect.unit (s := S8x128) ![0, 0] S1x128.size inb_S8x128_S1x128_0_0).idx (ix2 0 b)) + _ = _
  rw [row0_idx]

/-- The last grid point's accumulator: as at a middle point. -/
theorem accC (hc0 : ¬cond0_0 i) (hc1 : cond0_1 i) :
    sout0_C_0 (F := Ideal) c i a1 h1 a2 h2 a3 h3 a4 h4 a5 h5 a6 h6 a7 h7 hc0 hc1 x0 x1 x2 x3 xs0 xs1 = k0_pay6 x0 x1 x3 x2 xs0 := by
  unfold sout0_C_0
  rw [View.read_writes_eq_canon _ _ _ (scover0_C_0 c i a1 h1 a2 h2 a3 h3 a4 h4 a5 h5 a6 h6 a7 h7 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h6.read_unread,
    View.ld_unit_zero (S := S5000x128) hz, View.ld_unit_zero (S := S128x32) hz, View.ld_unit_zero (S := S1024x1) hz,
    View.ld_unit_zero (S := S1024x128) hz, View.ld_unit_zero (S := S1x5000x1) hz3]

/-- The last grid point's count row: as at a middle point. -/
theorem cntC (hc0 : ¬cond0_0 i) (hc1 : cond0_1 i) (b : Fin 128) :
    sout0_C_1 (F := Ideal) c i a1 h1 a2 h2 a3 h3 a4 h4 a5 h5 a6 h6 a7 h7 hc0 hc1 x0 x1 x2 x3 xs0 xs1 (ix2 0 b)
      = xs1 (ix2 0 b) + ∑ p : Fin 5000, hitw (x2 (ix3 0 p 0)) b := by
  unfold sout0_C_1 kernelRun0_C
  dsimp only
  sl_unfold_words
  simp only [View.readAt_eq_ld, h3.read_unread, h7.read_unread, View.ld_unit_zero (S := S1x5000x1) hz3]
  refine (View.read_writes_cons_rows_of_mem a7.view (h7.unread xs1) inb_S8x128_S1x128_0_0 _ [] (ix2 0 b) (ix2 0 b) rfl rfl rfl).trans ?_
  rw [pay1_eq, pay7_apply]
  show xs1 ((Rect.unit (s := S8x128) ![0, 0] S1x128.size inb_S8x128_S1x128_0_0).idx (ix2 0 b)) + _ = _
  rw [row0_idx]

/-- The last grid point's output block: half of the accumulator just updated, transposed, plus the count row just updated. -/
theorem outC (hc0 : ¬cond0_0 i) (hc1 : cond0_1 i) (b : Fin 128) (r : Fin 1024) :
    out0_C_4 (F := Ideal) c i a1 h1 a2 h2 a3 h3 a4 h4 a5 h5 a6 h6 a7 h7 hc0 hc1 x0 x1 x2 x3 xs0 xs1 (ix2 b r)
      = cHalf * (k0_pay6 x0 x1 x3 x2 xs0 (ix2 r b) + (xs1 (ix2 0 b) + ∑ p : Fin 5000, hitw (x2 (ix3 0 p 0)) b)) := by
  unfold out0_C_4
  rw [View.read_writes_eq_canon _ _ _ (cover0_C_4 c i a1 h1 a2 h2 a3 h3 a4 h4 a5 h5 a6 h6 a7 h7 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x32) hz, View.ld_unit_zero (S := S1024x1) hz,
    View.ld_unit_zero (S := S1024x128) hz, View.ld_unit_zero (S := S1x5000x1) hz3]
  rw [View.readCov_unit_zero (S := S1024x128) _ hz, View.readCov_cons_toLoadRect, pay2_apply, pay1_eq, pay7_apply]
  show cHalf * (_ + (xs1 ((Rect.unit (s := S8x128) ![0, 0] S1x128.size inb_S8x128_S1x128_0_0).idx (ix2 0 b)) + _)) = _
  rw [row0_idx]

/-- The first grid point zeroes the accumulator and then adds its block's tangents. -/
theorem accA (hc0 : cond0_0 i) (hc1 : ¬cond0_1 i) :
    sout0_A_0 (F := Ideal) c i a1 h1 a2 h2 a3 h3 a4 h4 a5 h5 a6 h6 a7 h7 hc0 hc1 x0 x1 x2 x3 = k0_pay6 x0 x1 x3 x2 (k0_pay3 (F := Ideal)) := by
  unfold sout0_A_0
  rw [View.read_writes_eq_canon _ _ _ (scover0_A_0 c i a1 h1 a2 h2 a3 h3 a4 h4 a5 h5 a6 h6 a7 h7 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, h1.read_unread, h2.read_unread, h3.read_unread, h4.read_unread,
    View.ld_unit_zero (S := S5000x128) hz, View.ld_unit_zero (S := S128x32) hz, View.ld_unit_zero (S := S1024x1) hz,
    View.ld_unit_zero (S := S1x5000x1) hz3]

/-- The first grid point zeroes the count buffer and then adds its block's node count per graph to row 0. -/
theorem cntA (hc0 : cond0_0 i) (hc1 : ¬cond0_1 i) (b : Fin 128) :
    sout0_A_1 (F := Ideal) c i a1 h1 a2 h2 a3 h3 a4 h4 a5 h5 a6 h6 a7 h7 hc0 hc1 x0 x1 x2 x3 (ix2 0 b)
      = ∑ p : Fin 5000, hitw (x2 (ix3 0 p 0)) b := by
  unfold sout0_A_1 kernelRun0_A
  dsimp only
  sl_unfold_words
  simp only [View.readAt_eq_ld, h3.read_unread, View.ld_unit_zero (S := S1x5000x1) hz3]
  refine (View.read_writes_cons_rows_of_mem VS0_1 VS0_1.junk inb_S8x128_S1x128_0_0 _ _ (ix2 0 b) (ix2 0 b) rfl rfl rfl).trans ?_
  rw [pay1_eq, pay7_apply, View.readCov_eq_canon', View.canon_unit_zero hz]
  simp only [pay4_apply, zero_add]

/-- The last grid point's output block in terms of what the point leaves in its two carried buffers. -/
theorem outC' (hc0 : ¬cond0_0 i) (hc1 : cond0_1 i) (b : Fin 128) (r : Fin 1024) :
    out0_C_4 (F := Ideal) c i a1 h1 a2 h2 a3 h3 a4 h4 a5 h5 a6 h6 a7 h7 hc0 hc1 x0 x1 x2 x3 xs0 xs1 (ix2 b r)
      = cHalf * (sout0_C_0 (F := Ideal) c i a1 h1 a2 h2 a3 h3 a4 h4 a5 h5 a6 h6 a7 h7 hc0 hc1 x0 x1 x2 x3 xs0 xs1 (ix2 r b)
          + sout0_C_1 (F := Ideal) c i a1 h1 a2 h2 a3 h3 a4 h4 a5 h5 a6 h6 a7 h7 hc0 hc1 x0 x1 x2 x3 xs0 xs1 (ix2 0 b)) := by
  rw [outC, accC, cntC]

end Pieces

section Run

variable (m : (ℓ : Loc nD τ sig) → Buf (Elt Ideal) ℓ) (ρ : Dev nD → PrngReg)

/-- The four arguments on core `c`, at their literal types. -/
abbrev argX (c : Dev nD) : SX.Idx → EReal := m ((c : Thread nD τ).loc main_arg0)
abbrev argB (c : Dev nD) : SB.Idx → BitVec 32 := m ((c : Thread nD τ).loc main_arg1)
abbrev argV (c : Dev nD) : SV.Idx → EReal := m ((c : Thread nD τ).loc main_arg2)
abbrev argL (c : Dev nD) : SL.Idx → EReal := m ((c : Thread nD τ).loc main_arg3)

/-- Block `j`'s tangents for graph `b` at (threshold `s`, direction `q`), and its node count for graph `b`. -/
def tanBlk (c : Dev nD) (j : Fin 10) (b : Fin 128) (s q : Fin 32) : EReal :=
  ∑ p : Fin 5000, Ideal.tanh (zk (argX m c) (argV m c) (argL m c) (node j p) s q) * hit (argB m c) (node j p) b
def cntBlk (c : Dev nD) (j : Fin 10) (b : Fin 128) : EReal := ∑ p : Fin 5000, hit (argB m c) (node j p) b

/-- The same with the block counted by a natural number (nothing past the last block). -/
def tanN (c : Dev nD) (j : ℕ) (b : Fin 128) (s q : Fin 32) : EReal := if h : j < 10 then tanBlk m c ⟨j, h⟩ b s q else 0
def cntN (c : Dev nD) (j : ℕ) (b : Fin 128) : EReal := if h : j < 10 then cntBlk m c ⟨j, h⟩ b else 0

/-- The accumulator's update at grid point `t`, which stages block `j`: what was there plus block `j`'s tangents. -/
theorem pay6_blocks (c : Dev nD) (t : Fin cfg0.N) (j : Fin 10) (hj : t.val = j.val) (a : Vec Ideal S1024x128 .f32)
    (s q : Fin 32) (b : Fin 128) :
    k0_pay6 (F := Ideal) (xblk m c t) (vblk m c t) (lblk m c t) (bblk m c t) a (ix2 (row s q) b)
      = a (ix2 (row s q) b) + tanBlk m c j b s q := by
  rw [pay6_apply]
  simp only [lblk_apply m c t s q, bblk_apply m c t j hj, vblk_apply m c t, xblk_apply m c t j hj]
  rfl

/-- The count's update at grid point `t`: block `j`'s node count. -/
theorem cnt_blocks (c : Dev nD) (t : Fin cfg0.N) (j : Fin 10) (hj : t.val = j.val) (b : Fin 128) :
    ∑ p : Fin 5000, hitw (bblk m c t (ix3 0 p 0)) b = cntBlk m c j b := by
  simp only [bblk_apply m c t j hj]
  rfl

theorem val_lt (t : Fin cfg0.N) : t.val < 10 := lt_of_lt_of_eq t.isLt N_0

/-- After the first grid point the accumulator holds block 0's tangents and the count row block 0's counts. -/
theorem first_point (c : Dev nD) (t : Fin cfg0.N) (h0 : t.val % 10 = 0) (h1 : ¬t.val % 10 = 9) :
    (∀ (s q : Fin 32) (b : Fin 128), (outsAt0 m c t.val t.isLt).2.1 (ix2 (row s q) b) = tanBlk m c ⟨t.val, val_lt t⟩ b s q)
    ∧ (∀ b : Fin 128, (outsAt0 m c t.val t.isLt).2.2 (ix2 0 b) = cntBlk m c ⟨t.val, val_lt t⟩ b) := by
  rw [outsAt0_A m c t h0 h1]
  dsimp only
  refine ⟨fun s q b => ?_, fun b => ?_⟩
  · refine (congrFun (accA c (grid0.coords t) (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _) (xblk m c t) (vblk m c t) (bblk m c t)
      (lblk m c t) ((hcond0_0 t).mpr h0) (fun h => h1 ((hcond0_1 t).mp h))) (ix2 (row s q) b)).trans ?_
    rw [pay6_blocks m c t ⟨t.val, val_lt t⟩ rfl, pay3_apply, zero_add]
  · refine (cntA c (grid0.coords t) (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _) (xblk m c t) (vblk m c t) (bblk m c t)
      (lblk m c t) ((hcond0_0 t).mpr h0) (fun h => h1 ((hcond0_1 t).mp h)) b).trans ?_
    exact cnt_blocks m c t ⟨t.val, val_lt t⟩ rfl b

/-- After a later grid point each carried buffer holds what the point before left plus this point's block. -/
theorem later_point (c : Dev nD) (t : Fin cfg0.N) (h0 : ¬t.val % 10 = 0) :
    (∀ (s q : Fin 32) (b : Fin 128), (outsAt0 m c t.val t.isLt).2.1 (ix2 (row s q) b)
        = (outsAt0 m c (t.val - 1) (Nat.lt_of_le_of_lt (Nat.sub_le _ _) t.isLt)).2.1 (ix2 (row s q) b) + tanBlk m c ⟨t.val, val_lt t⟩ b s q)
    ∧ (∀ b : Fin 128, (outsAt0 m c t.val t.isLt).2.2 (ix2 0 b)
        = (outsAt0 m c (t.val - 1) (Nat.lt_of_le_of_lt (Nat.sub_le _ _) t.isLt)).2.2 (ix2 0 b) + cntBlk m c ⟨t.val, val_lt t⟩ b) := by
  by_cases h1 : t.val % 10 = 9
  · rw [outsAt0_C m c t h0 h1]
    dsimp only
    refine ⟨fun s q b => ?_, fun b => ?_⟩
    · refine (congrFun (accC c (grid0.coords t) (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _) (xblk m c t) (vblk m c t) (bblk m c t)
        (lblk m c t) (outsAt0 m c (t.val - 1) (Nat.lt_of_le_of_lt (Nat.sub_le _ _) t.isLt)).2.1
        (outsAt0 m c (t.val - 1) (Nat.lt_of_le_of_lt (Nat.sub_le _ _) t.isLt)).2.2
        (fun h => h0 ((hcond0_0 t).mp h)) ((hcond0_1 t).mpr h1)) (ix2 (row s q) b)).trans ?_
      exact pay6_blocks m c t ⟨t.val, val_lt t⟩ rfl _ s q b
    · refine (cntC c (grid0.coords t) (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _) (xblk m c t) (vblk m c t) (bblk m c t)
        (lblk m c t) (outsAt0 m c (t.val - 1) (Nat.lt_of_le_of_lt (Nat.sub_le _ _) t.isLt)).2.1
        (outsAt0 m c (t.val - 1) (Nat.lt_of_le_of_lt (Nat.sub_le _ _) t.isLt)).2.2
        (fun h => h0 ((hcond0_0 t).mp h)) ((hcond0_1 t).mpr h1) b).trans ?_
      rw [cnt_blocks m c t ⟨t.val, val_lt t⟩ rfl b]
  · rw [outsAt0_B m c t h0 h1]
    dsimp only
    refine ⟨fun s q b => ?_, fun b => ?_⟩
    · refine (congrFun (accB c (grid0.coords t) (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _) (xblk m c t) (vblk m c t) (bblk m c t)
        (lblk m c t) (outsAt0 m c (t.val - 1) (Nat.lt_of_le_of_lt (Nat.sub_le _ _) t.isLt)).2.1
        (outsAt0 m c (t.val - 1) (Nat.lt_of_le_of_lt (Nat.sub_le _ _) t.isLt)).2.2
        (fun h => h0 ((hcond0_0 t).mp h)) (fun h => h1 ((hcond0_1 t).mp h))) (ix2 (row s q) b)).trans ?_
      exact pay6_blocks m c t ⟨t.val, val_lt t⟩ rfl _ s q b
    · refine (cntB c (grid0.coords t) (ms0_0 t) (hs0_0 t) (ms0_1 t) (hs0_1 t) (ms0_2 t) (hs0_2 t) (ms0_3 t) (hs0_3 t)
        (ms0_4 t) (hs0_4 t) scM0_0 (Memref.isWhole_whole _) scM0_1 (Memref.isWhole_whole _) (xblk m c t) (vblk m c t) (bblk m c t)
        (lblk m c t) (outsAt0 m c (t.val - 1) (Nat.lt_of_le_of_lt (Nat.sub_le _ _) t.isLt)).2.1
        (outsAt0 m c (t.val - 1) (Nat.lt_of_le_of_lt (Nat.sub_le _ _) t.isLt)).2.2
        (fun h => h0 ((hcond0_0 t).mp h)) (fun h => h1 ((hcond0_1 t).mp h)) b).trans ?_
      rw [cnt_blocks m c t ⟨t.val, val_lt t⟩ rfl b]

theorem tanN_of_lt (c : Dev nD) (j : ℕ) (h : j < 10) (b : Fin 128) (s q : Fin 32) : tanN m c j b s q = tanBlk m c ⟨j, h⟩ b s q := by
  unfold tanN; rw [dif_pos h]
theorem cntN_of_lt (c : Dev nD) (j : ℕ) (h : j < 10) (b : Fin 128) : cntN m c j b = cntBlk m c ⟨j, h⟩ b := by
  unfold cntN; rw [dif_pos h]

/-- THE RUNNING SUMS. After grid point `n` the accumulator holds the tangents of blocks `0 … n` and row 0 of the count
    buffer their node counts: by induction on the point. -/
theorem running (c : Dev nD) : ∀ (n : ℕ) (h : n < cfg0.N),
    (∀ (s q : Fin 32) (b : Fin 128), (outsAt0 m c n h).2.1 (ix2 (row s q) b) = ∑ j ∈ Finset.range (n + 1), tanN m c j b s q)
    ∧ (∀ b : Fin 128, (outsAt0 m c n h).2.2 (ix2 0 b) = ∑ j ∈ Finset.range (n + 1), cntN m c j b)
  | 0, h => by
    obtain ⟨hA, hC⟩ := first_point m c ⟨0, h⟩ rfl (by dsimp only; omega)
    refine ⟨fun s q b => ?_, fun b => ?_⟩
    · rw [Finset.sum_range_one, tanN_of_lt m c 0 (by decide)]; exact hA s q b
    · rw [Finset.sum_range_one, cntN_of_lt m c 0 (by decide)]; exact hC b
  | n + 1, h => by
    have hlt : n + 1 < 10 := lt_of_lt_of_eq h N_0
    obtain ⟨ihA, ihC⟩ := running c n (Nat.lt_of_succ_lt h)
    obtain ⟨hA, hC⟩ := later_point m c ⟨n + 1, h⟩ (by dsimp only; omega)
    refine ⟨fun s q b => ?_, fun b => ?_⟩
    · rw [Finset.sum_range_succ, ← ihA s q b, tanN_of_lt m c (n + 1) hlt]; exact hA s q b
    · rw [Finset.sum_range_succ, ← ihC b, cntN_of_lt m c (n + 1) hlt]; exact hC b

theorem nine_lt : 9 < cfg0.N := by rw [show cfg0.N = 10 from N_0]; decide

/-- What the region leaves in its result array: the last grid point's output block (the block is the whole array). -/
abbrev result (c : Dev nD) : Vec Ideal S128x1024 .f32 := (outsAt0 m c 9 nine_lt).1

/-- The result at (graph `b`, row `32·s + q`) is the transform in its tangent arrangement at (b, s, q). -/
theorem result_apply (c : Dev nD) (b : Fin 128) (s q : Fin 32) :
    (outsAt0 m c 9 nine_lt).1 (ix2 b (row s q)) = ectK (argX m c) (argB m c) (argV m c) (argL m c) (ix3 b s q) := by
  obtain ⟨hA, hC⟩ := running m c 9 nine_lt
  have e : (outsAt0 m c 9 nine_lt).1 (ix2 b (row s q))
      = cHalf * ((outsAt0 m c 9 nine_lt).2.1 (ix2 (row s q) b) + (outsAt0 m c 9 nine_lt).2.2 (ix2 0 b)) := by
    rw [show outsAt0 m c 9 nine_lt = _ from outsAt0_C m c t0_9 (by decide) rfl]
    dsimp only
    exact outC' c (grid0.coords t0_9) (ms0_0 t0_9) (hs0_0 t0_9) (ms0_1 t0_9) (hs0_1 t0_9) (ms0_2 t0_9) (hs0_2 t0_9) (ms0_3 t0_9) (hs0_3 t0_9)
        (ms0_4 t0_9) (hs0_4 t0_9) scM0_0 (Memref.isWhole_whole _) scM0_1 (Memref.isWhole_whole _) (xblk m c t0_9) (vblk m c t0_9) (bblk m c t0_9)
        (lblk m c t0_9) (outsAt0 m c (t0_9.val - 1) (Nat.lt_of_le_of_lt (Nat.sub_le _ _) t0_9.isLt)).2.1
        (outsAt0 m c (t0_9.val - 1) (Nat.lt_of_le_of_lt (Nat.sub_le _ _) t0_9.isLt)).2.2
        (fun h => (by decide : ¬t0_9.val % 10 = 0) ((hcond0_0 t0_9).mp h)) ((hcond0_1 t0_9).mpr rfl) b (row s q)
  rw [e, hA s q b, hC b, Finset.sum_range (fun j => tanN m c j b s q), Finset.sum_range (fun j => cntN m c j b)]
  unfold ectK accK cntK
  simp only [tanN_of_lt m c _ (Fin.isLt _), cntN_of_lt m c _ (Fin.isLt _)]
  rfl

end Run

section Final

variable (m : (ℓ : Loc nD τ sig) → Buf (Elt Ideal) ℓ) (ρ : Dev nD → PrngReg)

/-- The one write-back, at the last grid point, writes the last point's output block: block (0, 0) of the [128, 1024]
    result array read through zero offsets is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 10 := N_0
  have h9 : t.val = 9 := by have := (flush0_4 t).mp hf; have := t.isLt; omega
  obtain rfl : t = t0_9 := Fin.ext h9
  show (cfg0.win 4).cut (grid0.coords t0_9) ((dats m 0 c).after 4 t0_9) = _
  rw [after0_4]
  have hz' : (fun a => win0_4.index t0_9 a * main_call0_v5.ty.shape.size a) = fun _ => 0 := funext fun a => by fin_cases a <;> decide
  exact (Memref.read_access_unit_zero (Elt Ideal) main_call0_v5 hz' (fun a => by rw [congrFun hz' a]; simp) (result m c)).symm

/-- So the result array ends holding the last grid point's output block: that point's block covers the array. -/
theorem final_o (c : Dev nD) : (dats m 0 c).arrAt 4 cfg0.N = result m c :=
  (dats m 0 c).arrAt_eq_of_cover 4 (result m c) (flushed_eq m c) fun i =>
    ⟨t0_9, (flush0_4 t0_9).mpr rfl, by
      show i ∈ ((View.whole main_call0_v5).slice (win0_4.rect t0_9)).set
      rw [View.set_slice_whole, Rect.mem_set_unit]
      intro a
      have h0 : (i 0 : Nat) < 128 := (i 0).isLt
      have h1 : (i 1 : Nat) < 1024 := (i 1).isLt
      match a with
      | ⟨0, _⟩ => show win0_4.index t0_9 0 * win0_4.size 0 ≤ (i 0 : Nat) ∧ (i 0 : Nat) < win0_4.index t0_9 0 * win0_4.size 0 + win0_4.xsize (grid0.coords t0_9) 0
                  rw [show win0_4.index t0_9 0 * win0_4.size 0 = 0 from by decide +kernel, show win0_4.xsize (grid0.coords t0_9) 0 = 128 from by decide +kernel]; omega
      | ⟨1, _⟩ => show win0_4.index t0_9 1 * win0_4.size 1 ≤ (i 1 : Nat) ∧ (i 1 : Nat) < win0_4.index t0_9 1 * win0_4.size 1 + win0_4.xsize (grid0.coords t0_9) 1
                  rw [show win0_4.index t0_9 1 * win0_4.size 1 = 0 from by decide +kernel, show win0_4.xsize (grid0.coords t0_9) 1 = 1024 from by decide +kernel]; omega⟩

/-- The host's reshape after the region reads the result array: the program's result is the [128, 1024] array seen as [128, 32, 32]. -/
theorem tail_eq (c : Dev nD) :
    Pipeline.afterTail₀ cfgs (dats m) 0 (V0 m) [hostOps1] c main_v0
      = shapeCast S128x32x32 (result m c) shapeCasts_S128x1024_S128x32x32 := by
  unfold Pipeline.afterTail₀
  show StableHlo.after hostOps1 _ (Proc.devRef .tc main_v0) = _
  after_results
  exact congrArg (fun z => shapeCast S128x32x32 z shapeCasts_S128x1024_S128x32x32)
    ((Pipeline.withArrays_arr spec0 launch0.win.arr_inj c _ _ 4).trans (final_o m c))

/-- The reshaped result is the transform in its tangent arrangement: (b, s, q) of [128, 32, 32] sits at (b, 32·s + q) of [128, 1024]. -/
theorem reshaped_eq (c : Dev nD) :
    shapeCast S128x32x32 (result m c) shapeCasts_S128x1024_S128x32x32 = ectK (argX m c) (argB m c) (argV m c) (argL m c) := by
  funext i
  obtain ⟨b, s, q, rfl⟩ : ∃ (b : Fin 128) (s q : Fin 32), i = ix3 b s q := ⟨i 0, i 1, i 2, eq_ix3 i⟩
  have hk : (S128x1024.rowMajor (ix2 b (row s q))).val = (S128x32x32.rowMajor (ix3 b s q)).val := by
    rw [Shape.rowMajor_val_two, Shape.rowMajor_val_three]
    show b.val * 1024 + (32 * s.val + q.val) = (b.val * 32 + s.val) * 32 + q.val
    omega
  exact (shapeCast_apply (s := S128x1024) (t := S128x32x32) (result m c) shapeCasts_S128x1024_S128x32x32 (ix3 b s q)
    (ix2 b (row s q)) hk).trans (result_apply m c b s q)

/-- THE KERNEL'S RUN, READ: every weakly fair execution ends with the program's result at the transform in its tangent
    arrangement of the four arguments, and the arguments as they were. -/
theorem run : θ_run defs (onTc (τ := τ) (main (F := Ideal))) ⟨m, fun _ => 0, ρ⟩ fun r => ∀ c : Dev nD,
      r.2.mem ((c : Thread nD τ).loc main_v0) = ectK (argX m c) (argB m c) (argV m c) (argL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v0 (Pipeline.mem_restRefs_of main_v0 (by decide) (by decide))).trans ((tail_eq m c).trans (reshaped_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Final

end Cert.KernelIdeal.Value

end
-- ==== Proof.lean ====
/-
  The Euler-characteristic-transform layer: a fused kernel against its jnp reference, equal over the extended reals.

  Both programs compute, for graph b, threshold s and direction t,

      out[b, s, t] = ∑ { e | batch[e] = b } σ(200 · (lin[s] − ⟨x_e, v_t⟩)),        σ(u) = 1 / (1 + exp (−u)).

  The reference forms the [32, 50000, 32] array of steps with the quotient over an exponential, moves the node axis
  first and takes a segment sum over the node axis; a node whose segment word names no graph lands nowhere.
  The kernel walks the nodes in ten blocks of five thousand. Per block it forms ⟨v_t, x_e⟩ on the matrix unit, the
  tangent tanh (100·lin[s] − 100·⟨v_t, x_e⟩) on a [1024, 5000] tile (row 32·s + t), the one-hot of the block's segment
  words against the 128 graphs (a word that names no graph gives a zero row), and adds tangents · one-hot to a
  [1024, 128] accumulator and the one-hot's column sums to a count row; the last block's point writes
  ½ · (accumulatorᵀ + count) as the [128, 1024] result, which the host views as [128, 32, 32].
  Since σ(2u) = ½ · tanh u + ½, a node in graph b contributes ½ · (tanh u + 1) = σ(2u) with
  2u = 200 · (lin[s] − ⟨x_e, v_t⟩), and a node outside it contributes ½ · (0 + 0) = 0.  Moving the factor ½ and the
  indicator across the sums needs every term finite, which is what the precondition gives.

  The modules: EctSpec states the transform in both arrangements; EctAlgebra proves them equal for finite arguments;
  EctFinite reads finiteness off the precondition; EctReference reads the reference's result as the first arrangement
  (LibSegmentSumPlanes: a segment sum of planes at an index); EctPayload reads the kernel body's stored values at an
  index; EctBlocks reads the windows' blocks off the arguments; EctKernel follows the accumulator and the count row
  through the ten grid points and reads the kernel's result as the second arrangement.
-/
import proofs.«123673_g1803886264527_cont_8to1_34_7_alg».proof.Defs
import proofs.«123673_g1803886264527_cont_8to1_34_7_alg».proof.Proof.Gen.Kernel
import proofs.«123673_g1803886264527_cont_8to1_34_7_alg».proof.Proof.Gen.Kernel.Frame
import proofs.«123673_g1803886264527_cont_8to1_34_7_alg».proof.Proof.Gen.KernelIdeal
import proofs.«123673_g1803886264527_cont_8to1_34_7_alg».proof.Proof.Gen.KernelIdeal.Frame
import proofs.«123673_g1803886264527_cont_8to1_34_7_alg».proof.Proof.Gen.ReferenceIdeal
import proofs.«123673_g1803886264527_cont_8to1_34_7_alg».proof.Proof.Gen.ReferenceIdeal.Run
import proofs.«123673_g1803886264527_cont_8to1_34_7_alg».proof.Proof.Gen.ReferenceIdeal.Read
import proofs.«123673_g1803886264527_cont_8to1_34_7_alg».proof.Proof.Gen.Pre_finite_inputs
import proofs.«123673_g1803886264527_cont_8to1_34_7_alg».proof.Proof.EctSpec
import proofs.«123673_g1803886264527_cont_8to1_34_7_alg».proof.Proof.EctAlgebra
import proofs.«123673_g1803886264527_cont_8to1_34_7_alg».proof.Proof.EctFinite
import proofs.«123673_g1803886264527_cont_8to1_34_7_alg».proof.Proof.EctReference
import proofs.«123673_g1803886264527_cont_8to1_34_7_alg».proof.Proof.EctKernel
import Idealize.ShloMosaic.Adequacy
import Idealize.ShloMosaic.Init

noncomputable section

namespace Cert.Proof

open Idealize.ShloMosaic Idealize.ShloMosaic.TcCoe Idealize.SL.Sem

/-- The three programs run, fault nowhere and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance the kernel's result is the transform in its tangent arrangement and the reference's is the
    transform as a sum of quotients over exponentials, of arguments that agree and are finite: one function. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Ect.Ref.ref_eq_ect, (hagree c).1, (hagree c).2.1, (hagree c).2.2.1,
    (hagree c).2.2.2]
  obtain ⟨hx, hv, hl⟩ := Cert.Ect.finite_of_pre _ _ _ _ (hpre c)
  exact (Cert.Ect.ectK_eq_ect _ _ _ _ hx hv hl).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
